-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192x1 : Shape := ⟨2, ![8192, 1]⟩
abbrev S512x256 : Shape := ⟨2, ![512, 256]⟩
abbrev S512x1 : Shape := ⟨2, ![512, 1]⟩
abbrev S1024x256 : Shape := ⟨2, ![1024, 256]⟩
abbrev S256x1024 : Shape := ⟨2, ![256, 1024]⟩
abbrev S512x1024 : Shape := ⟨2, ![512, 1024]⟩
abbrev S512 : Shape := ⟨1, ![512]⟩
abbrev S8192 : Shape := ⟨1, ![8192]⟩

abbrev nBuf : Space → Nat
  | .hbm => 40
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S8192x1, .f32⟩
  | .hbm, ⟨25, _⟩ => ⟨S8192, .f32⟩
  | .hbm, ⟨26, _⟩ => ⟨S4096x256, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S512x1, .f32⟩
  | .local _ .vmem, ⟨4, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v4 : BitVec 32 := Scalar.muli c0_i32 c1024_i32
  v4
def k0_off1 (c0_i32 : BitVec 32) : Fin 2 → Nat :=
  let c1024_i32 : BitVec 32 := 1024#32
  let v4 : BitVec 32 := Scalar.muli c0_i32 c1024_i32
  let v5 : BitVec 32 := v4
  let v6 : Index := Scalar.indexCast v5
  let c0_1 : Index := 0#32
  ![v6.toNat, 0]
def k0_mult2 : BitVec 32 :=
  let c1_i32 : BitVec 32 := 1#32
  let c1024_i32_6 : BitVec 32 := 1024#32
  let v28 : BitVec 32 := Scalar.muli c1_i32 c1024_i32_6
  v28
def k0_mult3 : BitVec 32 :=
  let c2_i32 : BitVec 32 := 2#32
  let c1024_i32_12 : BitVec 32 := 1024#32
  let v52 : BitVec 32 := Scalar.muli c2_i32 c1024_i32_12
  v52
def k0_mult4 : BitVec 32 :=
  let c3_i32 : BitVec 32 := 3#32
  let c1024_i32_18 : BitVec 32 := 1024#32
  let v76 : BitVec 32 := Scalar.muli c3_i32 c1024_i32_18
  v76
def k0_mult5 : BitVec 32 :=
  let c4_i32 : BitVec 32 := 4#32
  let c1024_i32_24 : BitVec 32 := 1024#32
  let v100 : BitVec 32 := Scalar.muli c4_i32 c1024_i32_24
  v100
def k0_mult6 : BitVec 32 :=
  let c5_i32 : BitVec 32 := 5#32
  let c1024_i32_30 : BitVec 32 := 1024#32
  let v124 : BitVec 32 := Scalar.muli c5_i32 c1024_i32_30
  v124
def k0_mult7 : BitVec 32 :=
  let c6_i32 : BitVec 32 := 6#32
  let c1024_i32_36 : BitVec 32 := 1024#32
  let v148 : BitVec 32 := Scalar.muli c6_i32 c1024_i32_36
  v148
def k0_mult8 : BitVec 32 :=
  let c7_i32 : BitVec 32 := 7#32
  let c1024_i32_42 : BitVec 32 := 1024#32
  let v172 : BitVec 32 := Scalar.muli c7_i32 c1024_i32_42
  v172
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S1024x256 : 0 < S1024x256.numel
  shapeCasts_S1024x256_S1024x256 : S1024x256.ShapeCasts S1024x256
  transposes_S1024x256_p1_0_S256x1024 : S1024x256.Transposes [1, 0] S256x1024
  iota_S512x1024_d0_w32 : S512x1024.Iotas .tc 32 [0]
  iota_S512x1024_d1_w32 : S512x1024.Iotas .tc 32 [1]
  natLt_1_32 : 1 < 32
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S512x256_S256x1024_S512x1024_1_0_0_1_n_n_wf : DotDims.WF S512x256 S256x1024 S512x1024 [1] [0] [0] [1] [] []
  hrank0 : 0 < grid0.rank
  k0_mult1_dvd : 1024 ∣ k0_mult1.toNat
  k0_off1_inb : ∀ (r : Fin 8), ∀ a, (k0_off1 (BitVec.ofNat 32 r.val)) a + S1024x256.size a ≤ S8192x256.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v17) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 99
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S8192x8192, .i32⟩
  | .hbm, ⟨73, _⟩ => ⟨S8192x8192, .i32⟩
  | .hbm, ⟨74, _⟩ => ⟨S_, .i32⟩
  | .hbm, ⟨75, _⟩ => ⟨S8192x8192, .i32⟩
  | .hbm, ⟨76, _⟩ => ⟨S8192x8192, .i32⟩
  | .hbm, ⟨77, _⟩ => ⟨S8192x8192, .i1⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_3 : Ref sig .tc := ⟨.hbm, 79, rfl⟩
abbrev main_v28 : Ref sig .tc := ⟨.hbm, 80, rfl⟩
abbrev main_v29 : Ref sig .tc := ⟨.hbm, 81, rfl⟩
abbrev main_cst_4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_5 : Ref sig .tc := ⟨.hbm, 87, rfl⟩
abbrev main_v34 : Ref sig .tc := ⟨.hbm, 88, rfl⟩
abbrev main_cst_6 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_v40 : Ref sig .tc := ⟨.hbm, 96, rfl⟩
abbrev main_cst_8 : Ref sig .tc := ⟨.hbm, 97, rfl⟩
abbrev main_v41 : Ref sig .tc := ⟨.hbm, 98, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KernelIdeal.Out.lean ====
/- What one grid point of the denominator kernel leaves in its output block, as a pure function of the two
   blocks it reads: the query block `q` (512 rows of the stacked normalized array) and the eight key chunks
   `k 0 … k 7` (1024 rows each, together the whole stacked array). Chunk by chunk the body forms the 512 × 1024
   tile of inner products, doubles it, exponentiates, zeroes the entries whose global row number equals their
   global column number, sums each row, and adds the row sums to a running column that starts at zero. -/
import proofs.«135226_j9397388444288_1_alg».proof.Proof.Gen.KernelIdeal.Skeleton
import Idealize.ShloMosaic.Lib.Pipeline.FrameBody

noncomputable section

namespace Cert.KernelIdeal.Hand

open Cert.KernelIdeal Cert.KernelIdeal.Gen Idealize.ShloMosaic

variable {F : FTy → Type} [FloatOps F]

/-- The whole query block. -/
abbrev rq : Rect S512x256 := Rect.unit (s := S512x256) ![0, 0] S512x256.size inb_S512x256_S512x256_0_0
/-- Key chunk `r`: rows `1024 r … 1024 r + 1023` of the resident array. -/
abbrev rk (r : Fin 8) : Rect S8192x256 := Rect.unit (s := S8192x256) (k0_off1 (BitVec.ofNat 32 r.val)) S1024x256.size (k0_off1_inb r)
/-- The whole output block. -/
abbrev ro : Rect S512x1 := Rect.unit (s := S512x1) ![0, 0] S512x1.size inb_S512x1_S512x1_0_0

/-- The column of 512 masked row sums accumulated over the eight key chunks, from the query block and the chunks. -/
def outVal (i : grid0.Coords) (q : Vec F S512x256 .bf16) (k : Fin 8 → Vec F S1024x256 .bf16) : FVec F S512x1 .f32 :=
  let v0 : BitVec 32 := Scalar.muli (BitVec.ofNat 32 (i 0).val) 512#32
  let v2 := k0_pay2 q
  let v27 := k0_pay3 i q (k 0)
  let v34 := k0_pay4 q (k 1)
  let v42 := k0_pay5 i
  let v75 := k0_pay6 v0 v2 v27 v34 v42 (k 2)
  let v82 := k0_pay7 v2 (k 3)
  let v85 := k0_pay8 v0
  let v87 : IVec S512x1024 32 := iota .tc S512x1024 32 [1] iota_S512x1024_d1_w32
  let v88 := k0_pay9
  let v123 := k0_pay10 v0 v2 v75 v82 v85 v87 v88 (k 4)
  let v130 := k0_pay11 v2 (k 5)
  let v133 := k0_pay12 v0
  let v134 : BitVec 32 := Scalar.muli 5#32 1024#32
  let v171 := k0_pay13 v0 v2 v123 v130 v133 v134 (k 6)
  let v178 := k0_pay14 v2 (k 7)
  let v181 := k0_pay15 v0
  k0_pay1 v171 7#32 v178 v181

/-- The output block after the body: its one whole-block store over the loads of the query block and of the
    eight chunks of the resident array. -/
def outBlk (i : grid0.Coords) (x0 : Vec F S512x256 .bf16) (x1 : Vec F S8192x256 .bf16) : Vec F S512x1 .f32 :=
  View.canon [⟨ro, outVal i (View.ld x0 rq) (fun r => View.ld x1 (rk r))⟩]

end Cert.KernelIdeal.Hand

end
-- ==== Proof.KernelIdeal.Body.lean ====
/- The denominator kernel's body as a triple: on whole staging buffers holding a query block, the resident
   stacked array and anything in the output block, it terminates holding the two inputs as they were and
   the output block at the column of masked row sums (`outBlk`). -/
import proofs.«135226_j9397388444288_1_alg».proof.Proof.KernelIdeal.Out
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one store is through the rectangle of the whole output block, so the list of that one piece
    tiles the block, and every index of the block lies in the piece. -/
theorem cover_out (p0 : Vec F S512x1 .f32) (y : S512x1.Idx) :
    ∃ pc ∈ ([⟨ro, p0⟩] : List (View.Piece (Elt F) S512x1 .f32)), y ∈ pc.1.set :=
  View.cover_of_tiled [⟨ro, p0⟩] S512x1.size (by rfl) y

/-- The body on whole staging memrefs. -/
theorem sound_kernel (c : Dev nD) (E : Set ℕ) (i : grid0.Coords)
    (arg1 : Memref sig .tc .vmem S512x256 .bf16) (harg1 : arg1.IsWhole)
    (arg2 : Memref sig .tc .vmem S8192x256 .bf16) (harg2 : arg2.IsWhole)
    (arg3 : Memref sig .tc .vmem S512x1 .f32) (harg3 : arg3.IsWhole)
    (x0 : Vec F S512x256 .bf16) (x1 : Vec F S8192x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk i x0 x1)) -∗ K ⟨⟩))
      ⊢ wp frame (wpE (defs₀ (F := F)) Variants.none c none) E (cc0__denom_kernel i arg1 harg1 arg2 harg2 arg3 harg3) K := by
  -- The printed function is its sequence of memory operations over named payloads.
  simp only [cc0__denom_kernel_eq_skeleton]; unfold cc0__denom_kernel_skel
  -- Each buffer is held at raw contents whose reading is the stated block; the output's are arbitrary.
  unfold owns
  iintro ⟨⟨%f0, %hf0, H0⟩, ⟨%f1, %hf1, H1⟩, ⟨%d2, %f2, -, H2⟩, Hk⟩
  subst hf0 hf1
  -- Through the four parts: the load of the query block, the eight loads of the key chunks (each reads the
  -- resident array at its rectangle, the array unchanged), the unused load of the output block, and the one
  -- store, after which the output buffer is its prior contents overwritten by the single whole-block piece.
  sl_exec
  sl_step
  iapply Hk
  -- The two inputs were only read: they are held at the contents they came with.
  isplitl [H0]
  · iexists f0; isplitr; · ipureintro; rfl
    iexact H0
  isplitl [H1]
  · iexists f1; isplitr; · ipureintro; rfl
    iexact H1
  iexists _; isplitr
  swap; · iexact H2
  ipureintro
  -- One piece covering the block: reading the overwritten buffer gives the piece's payload whatever was there
  -- before, and that payload, the chunks' loads substituted, is the column of masked row sums.
  exact View.read_writes_eq_canon _ _ _ (cover_out _)

end Cert.KernelIdeal.Hand

end
-- ==== Proof.KernelIdeal.Data.lean ====
/- The pipeline's proof data for the denominator kernel and its body obligation. The first two windows are
   two readings of ONE array (the stacked normalized rows): window 0 a block of 512 rows per grid point, window 1
   the whole array, fetched once. Each holds half of that array's share. Window 2 is the output column. -/
import proofs.«135226_j9397388444288_1_alg».proof.Proof.KernelIdeal.Body
import proofs.«135226_j9397388444288_1_alg».proof.Proof.Gen.KernelIdeal.Launch
import proofs.«135226_j9397388444288_1_alg».proof.Proof.Gen.KernelIdeal.Points
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: the launch contents after the host operations before it. -/
abbrev V₀ (c : Dev nD) : Valuation τ sig (Elt F) := StableHlo.after (List.flatten [hostOps0]) (fun b => m (c, b))
abbrev V (c : Dev nD) (b : Ref sig .tc) : Buf (Elt F) ((c : Thread nD τ).loc b) := V₀ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (grid0.coords t) (iblk m c 0 t) (iblk m c 1 t) := by dsimp only [dats]

/-- What a fetch of window `w` at point `t` reads is that window's block of the array as the region finds it:
    both read the same block view of the same array contents. -/
theorem blockOf_eq (c : Dev nD) (w : Fin cfg0.W) (t : Fin cfg0.N) : (dats m 0 c).blockOf w t = iblk m c w t := by
  unfold Dat.blockOf iblk; rw [A_eq]

/-- Each input's current staging buffer holds its block at every point, fetched there or not. Window 0's block
    index moves at every point and it is fetched at each. -/
theorem before0_0 (c : Dev nD) (t : Fin cfg0.N) (d) : (dats m 0 c).before 0 t d = iblk m c 0 t :=
  calc (dats m 0 c).before 0 t d
      = (dats m 0 c).fetched 0 t d :=
        (dats m 0 c).before_in_eq_fetched 0 rfl (fun _ => rfl) (fun _ _ _ => rfl)
          (fun t => by rw [after0_0]; exact (blockOf_eq m c 0 t).symm) t d
    _ = (dats m 0 c).blockOf 0 t := rfl
    _ = iblk m c 0 t := blockOf_eq m c 0 t
/-- Window 1's block is the whole array at every point, so its index never moves: it is fetched at the first point
    and, the body leaving it as found, every later point finds that same block. -/
theorem before0_1 (c : Dev nD) (t : Fin cfg0.N) (d) : (dats m 0 c).before 1 t d = iblk m c 1 t :=
  calc (dats m 0 c).before 1 t d
      = (dats m 0 c).fetched 1 t d :=
        (dats m 0 c).before_in_eq_fetched 1 rfl (fun _ => rfl) (fun _ _ _ => rfl)
          (fun t => by rw [after0_1]; exact (blockOf_eq m c 1 t).symm) t d
    _ = (dats m 0 c).blockOf 1 t := rfl
    _ = iblk m c 1 t := blockOf_eq m c 1 t

/-- What the body is handed at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back: the invariant and debt of the next point, and each buffer at what the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- Neither the invariant nor the debt depends on the point: the invariant is one fixed resource, nothing is owed. -/
theorem rest_const (c : Dev nD) (t : Fin cfg0.N) :
    (dats m 0 c).Φ t.succ = (dats m 0 c).Φ t.castSucc
      ∧ (dats m 0 c).owesAt () t.succ = (dats m 0 c).owesAt () t.castSucc := ⟨rfl, rfl⟩

/-- The body at any point. The two input buffers hold their blocks, so the body's triple applies with the output
    buffer at whatever it held; it returns the inputs as they were and the output at the column of masked row sums
    of those two blocks, which is what the proof data says is left. The invariant and the debt are not read: they
    are set aside before the call and given back after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [(rest_const m c t).1, (rest_const m c t).2, after0_0, after0_1, after0_2]
  simp only [before0_0, before0_1]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  iframe H0 H1
  isplitl [H2]
  · iexists _; iexact H2
  iintro ⟨H0, H1, H2⟩
  iframe

/-- The library's body obligation, at every point: its product over the three windows written out is the
    statement above. -/
theorem body_obligation (c : Dev nD) : BodyObligation (dats (F := F) m 0 c) (defs₀ (F := F)) Variants.none () Set.univ := by
  intro t
  rw [bigSep_W0, bigSep_W0]
  exact sound_body m c t

end Cert.KernelIdeal.Hand

end
-- ==== Proof.KernelIdeal.Launch.lean ====
/- The launch of the program around its one kernel region. @main is host operations (the two inputs normalized,
   stacked and rounded), the region, and more host operations (the loss from the region's column of denominators). The
   region's first two windows read ONE array, so the array's full share is split in two halves at the region's entry,
   one per window, and the halves are joined again at its exit, where both still hold the entry contents (an input
   window's array is never written). The later host operations then run on whole buffers. -/
import proofs.«135226_j9397388444288_1_alg».proof.Proof.KernelIdeal.Data
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows -/

/-- The three windows stand on two buffers: the stacked array (windows 0 and 1) and the output column (window 2). -/
theorem arrImage : Finset.univ.image (Pipeline.arrRef spec0) = {main_v17, main_v18} := by decide

/-- The two buffers, whole at the full share at contents `W`. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v17) ↦{fullShare} W main_v17) ∗ (((c : Thread nD τ).loc main_v18) ↦{fullShare} W main_v18)) := by
  unfold Pipeline.arrBufs
  rw [arrImage, bigSep_insert (by decide), bigSep_singleton]
  rfl

/-- The pipeline's arrays at contents `G`: the stacked array at the two half shares, the output column at the full one. -/
theorem arrays_eq3 (c : Dev nD) (G : (w : Fin cfg0.W) → Buf (Elt F) ((cfg0.win w).arr.view.loc (c : Thread nD τ))) :
    (dats m 0 c).arrays G
      = iprop((((c : Thread nD τ).loc main_v17) ↦{fullShare.left} G 0) ∗ (((c : Thread nD τ).loc main_v17) ↦{fullShare.right} G 1)
          ∗ (((c : Thread nD τ).loc main_v18) ↦{fullShare} G 2)) := by
  unfold Dat.arrays
  rw [bigSep_W0]
  rw [(arr_whole0 0).set_eq_univ, (arr_whole0 2).set_eq_univ]
  rfl

/-- Two readings of the stacked array that agree, and the output column, from the two whole buffers: the stacked array's
    full share split in two. -/
theorem arrays_of_bufs (c : Dev nD) (W : (b : Ref sig .tc) → Buf (Elt F) ((c : Thread nD τ).loc b))
    (G : (w : Fin cfg0.W) → Buf (Elt F) ((cfg0.win w).arr.view.loc (c : Thread nD τ)))
    (h0 : G 0 = W main_v17) (h1 : G 1 = W main_v17) (h2 : G 2 = W main_v18) :
    (Pipeline.arrBufs (Ix := Unit) (Name := ℕ) (U := UR sig nD τ) (Lvl := ℕ) spec0 c W : sProp 𝕄) ⊢ (dats m 0 c).arrays G := by
  rw [arrBufs_eq, arrays_eq3, h0, h1, h2]
  iintro ⟨H7, H8⟩
  ihave H := (pointsTo_share (PosShare.mem_left_op_right fullShare)).1 $$ H7
  icases H with ⟨Hl, Hr⟩
  isplitl [Hl]; · iexact Hl
  isplitl [Hr]; · iexact Hr
  iexact H8

/-- And back: the halves joined. -/
theorem bufs_of_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_v17) (h1 : G 1 = W main_v17) (h2 : G 2 = W main_v18) :
    (dats m 0 c).arrays G ⊢ (Pipeline.arrBufs (Ix := Unit) (Name := ℕ) (U := UR sig nD τ) (Lvl := ℕ) spec0 c W : sProp 𝕄) := by
  rw [arrBufs_eq, arrays_eq3, h0, h1, h2]
  iintro ⟨Hl, Hr, H8⟩
  isplitr [H8]
  · iapply (pointsTo_share (PosShare.mem_left_op_right fullShare)).2
    isplitl [Hl] <;> iassumption
  · iexact H8

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, at the contents after the earlier ones. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The contents at the region's exit and at the end -/

/-- Core `c`'s buffers at the region's exit: as at its entry, the output column at what the write-backs left. -/
def W₁ (c : Dev nD) : Valuation τ sig (Elt F) :=
  Function.update (V₀ m c) (Proc.devRef .tc main_v18) ((dats m 0 c).arrAt 2 cfg0.N)

/-- and at the end: after the later host operations. -/
def W₂ (c : Dev nD) : Valuation τ sig (Elt F) := StableHlo.after (List.flatten [hostOps1]) (W₁ m c)

theorem W₁_out (c : Dev nD) : W₁ m c (Proc.devRef .tc main_v18) = (dats m 0 c).arrAt 2 cfg0.N := by
  unfold W₁; exact Function.update_self ..

theorem W₁_of_ne (c : Dev nD) (b : Ref sig .tc) (hb : b ≠ main_v18) : W₁ m c (Proc.devRef .tc b) = V m c b := by
  unfold W₁; exact Function.update_of_ne (fun e => hb (Proc.devRef_injective _ e)) ..

/-- The later host operations write neither of the two buffers behind the windows. -/
theorem tail_keeps (b : Ref sig .tc) (hb : b = main_v17 ∨ b = main_v18) :
    ∀ op ∈ (List.flatten [hostOps1] : List (HloOp τ sig (Elt F))), Proc.devRef .tc b ∉ op.writes := by
  intro op hop
  simp only [List.flatten_cons, List.flatten_nil, List.append_nil, hostOps1, List.mem_cons, List.mem_nil_iff, or_false] at hop
  rcases hb with rfl | rfl <;>
  rcases hop with rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem W₂_in (c : Dev nD) : W₂ m c (Proc.devRef .tc main_v17) = V m c main_v17 := by
  unfold W₂
  rw [StableHlo.after_of_forall_not_mem _ _ (tail_keeps main_v17 (.inl rfl)), W₁_of_ne m c main_v17 (by decide)]

theorem W₂_out (c : Dev nD) : W₂ m c (Proc.devRef .tc main_v18) = (dats m 0 c).arrAt 2 cfg0.N := by
  unfold W₂
  rw [StableHlo.after_of_forall_not_mem _ _ (tail_keeps main_v18 (.inr rfl)), W₁_out]

/-- An input window's array holds its entry contents throughout. -/
theorem arrAt_in0 (c : Dev nD) (n : Nat) : (dats m 0 c).arrAt 0 n = V m c main_v17 :=
  ((dats m 0 c).arrAt_in 0 rfl n).trans (A_eq m c 0)
theorem arrAt_in1 (c : Dev nD) (n : Nat) : (dats m 0 c).arrAt 1 n = V m c main_v17 :=
  ((dats m 0 c).arrAt_in 1 rfl n).trans (A_eq m c 1)

/-- The later host operations touch unscoped buffers only and allocate nothing. -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The buffers that bypass the region keep their contents across it. -/
theorem rest_congr (c : Dev nD) :
    (Pipeline.unscopedRest (Ix := Unit) (Name := ℕ) (U := UR sig nD τ) (Lvl := ℕ) spec0 c (V m c) : sProp 𝕄)
      = Pipeline.unscopedRest spec0 c (fun b => W₁ m c (Proc.devRef .tc b)) := by
  unfold Pipeline.unscopedRest
  refine bigSep_congr fun b hb => ?_
  have hne : b ≠ main_v18 := fun e => (Finset.mem_sdiff.mp hb).2 (Finset.mem_image.mpr ⟨2, Finset.mem_univ _, e ▸ rfl⟩)
  beta_reduce
  rw [W₁_of_ne m c b hne]

/-! ## The later host operations, from the region's exit -/

/-- From the region's exit — the boundary, the pipeline's arrays at their final contents, the bypassing buffers at their
    entry contents — the later host operations run on the whole unscoped buffers (the stacked array's halves joined) and
    hand back the arrays as they were (they write neither buffer behind the windows) and the bypassing buffers at the
    contents after them. -/
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => W₂ m c (Proc.devRef .tc b))) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c : Thread nD τ) none) Set.univ
          (Pipeline.chain [StableHlo.seq hostOps1]) Q' := by
  have h1 : (dats m 0 c).arrays ((dats m 0 c).arrAt · cfg0.N)
      ⊢ (Pipeline.arrBufs (Ix := Unit) (Name := ℕ) (U := UR sig nD τ) (Lvl := ℕ) spec0 c (fun b => W₁ m c (Proc.devRef .tc b)) : sProp 𝕄) :=
    bufs_of_arrays m c (fun b => W₁ m c (Proc.devRef .tc b)) _
      ((arrAt_in0 m c _).trans (W₁_of_ne m c main_v17 (by decide)).symm)
      ((arrAt_in1 m c _).trans (W₁_of_ne m c main_v17 (by decide)).symm) (W₁_out m c).symm
  have h2 : (Pipeline.arrBufs (Ix := Unit) (Name := ℕ) (U := UR sig nD τ) (Lvl := ℕ) spec0 c (fun b => W₂ m c (Proc.devRef .tc b)) : sProp 𝕄)
      ⊢ (dats m 0 c).arrays ((dats m 0 c).arrAt · cfg0.N) :=
    arrays_of_bufs m c (fun b => W₂ m c (Proc.devRef .tc b)) _
      ((arrAt_in0 m c _).trans (W₂_in m c).symm) ((arrAt_in1 m c _).trans (W₂_in m c).symm) (W₂_out m c).symm
  have hW1 : iprop((dats m 0 c).arrays ((dats m 0 c).arrAt · cfg0.N)
        ∗ Pipeline.unscopedRest (Ix := Unit) (Name := ℕ) (U := UR sig nD τ) (Lvl := ℕ) spec0 c (fun b => W₁ m c (Proc.devRef .tc b)))
      ⊢ (StableHlo.held (c : Thread nD τ) (Pipeline.ucRefs τ sig) (W₁ m c) : sProp 𝕄) := by
    rw [← Pipeline.unscopedBufs_held (Ix := Unit) (Name := ℕ) (U := UR sig nD τ) (Lvl := ℕ) c (W₁ m c),
      Pipeline.unscopedBufs_split₀ cfgs (0 : Fin 1) winFacts₀0.arr_unscoped c]
    exact sep_mono h1 .rfl
  have hW2 : (StableHlo.held (c : Thread nD τ) (Pipeline.ucRefs τ sig) (W₂ m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => W₂ m c (Proc.devRef .tc b))) := by
    rw [← Pipeline.unscopedBufs_held (Ix := Unit) (Name := ℕ) (U := UR sig nD τ) (Lvl := ℕ) c (W₂ m c),
      Pipeline.unscopedBufs_split₀ cfgs (0 : Fin 1) winFacts₀0.arr_unscoped c]
    exact sep_mono h2 .rfl
  rw [rest_congr m c, show ([StableHlo.seq hostOps1] : List (Prog (TpuEff nD τ sig (Elt F) (Pipeline.Sig Λ₀ (Fin 1) fun p => (pcfgs (F := F) p).Adm) .tc) PUnit))
      = ([hostOps1].map StableHlo.seq ++ []) from rfl]
  iintro ⟨Hk, Hb, Ha, Hz⟩
  ihave Hh := hW1 $$ [Ha Hz]
  · isplitl [Ha] <;> iassumption
  iapply (Pipeline.wp_seqs_then (pcfgs (F := F)) defs₀ Variants.none c (Pipeline.ucRefs τ sig) [] [hostOps1] sfx_sub sfx_fresh (W₁ m c)) $$ [Hb Hh]
  · isplitl [Hb] <;> iassumption
  iintro ⟨Hb, Hh⟩
  rw [Pipeline.chain_nil, wp_pure]
  imodintro
  iapply Hk
  iapply hW2
  iexact Hh

/-! ## The run -/

set_option backward.isDefEq.respectTransparency.types false in
/-- From any memory with zero counters every weakly fair execution of @main on the TensorCores terminates, and every final
    state has each array of the pipeline at what the write-backs computed and every buffer that bypasses the region at the
    contents after all the host operations. -/
theorem run_main : θ_run defs (onTc (τ := τ) (main (F := F))) (s₀ m ρ) (fun r => ∀ c : Dev nD,
      (∀ w, r.2.mem ((cfg0.spec w).arr.view.loc (c : Thread nD τ)) = (dats m 0 c).arrAt w cfg0.N)
      ∧ ∀ b ∈ Pipeline.restRefs sig spec0, r.2.mem ((c : Thread nD τ).loc b) = W₂ m c (Proc.devRef .tc b)) :=
  Pipeline.θ_run_region_noSem_pf_tail (pcfgs (F := F)) (fun q => (cfgs q).toPCfg_adm) (dats m) () cellOf_inj (0 : Fin 1) winFacts₀0
    (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m)
    (hsplit := fun c => arrays_of_bufs m c (V m c) _ (A_eq m c 0) (A_eq m c 1) (A_eq m c 2))
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => W₂ m c (Proc.devRef .tc b)))
    (hX := fun c => by
      rw [Pipeline.unscopedRestP_none]
      iintro H; isplitr
      · iempintro
      · iexact H)
    (hin := fun c => by
      rw [show (dats m 0 c).Φ 0 = Pipeline.scopedRest (Ix := Unit) (Name := ℕ) (U := UR sig nD τ) (Lvl := ℕ) (Val := Elt F) spec0 c from rfl]
      iintro ⟨-, -, Hr⟩; iexact Hr)
    (hout := fun c => by
      rw [show (dats m 0 c).Φ (Fin.last cfg0.N) = Pipeline.scopedRest (Ix := Unit) (Name := ℕ) (U := UR sig nD τ) (Lvl := ℕ) (Val := Elt F) spec0 c from rfl]
      iintro Hr; isplitr
      · iempintro
      · iexact Hr)
    (htail := fun c Q' => htail m c Q')
    (QY := fun c s => ∀ b ∈ Pipeline.restRefs sig spec0, s.mem ((c : Thread nD τ).loc b) = W₂ m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => W₂ m c (Proc.devRef .tc b)) s')
      isplitl [HU] <;> iassumption)
    (hQ := fun s h c => ⟨(h c).1, (h c).2.2⟩)

end Cert.KernelIdeal.Hand

end
-- ==== Proof.KernelIdeal.Frame.lean ====
/- The frame: the program runs to the end without a fault and leaves its two argument arrays as launched. Neither
   is a window's array, so each bypasses the region, and no host operation before or after the region writes it. -/
import proofs.«135226_j9397388444288_1_alg».proof.Proof.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The host operations before the region write neither argument. -/
theorem prefix_keeps_arg (b : Ref sig .tc) (hb : b = main_arg0 ∨ b = main_arg1) :
    ∀ op ∈ (List.flatten [hostOps0] : List (HloOp τ sig (Elt F))), Proc.devRef .tc b ∉ op.writes := by
  intro op hop
  simp only [List.flatten_cons, List.flatten_nil, List.append_nil, hostOps0, List.mem_cons, List.mem_nil_iff, or_false] at hop
  rcases hb with rfl | rfl <;>
  rcases hop with rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-- Nor do those after it. -/
theorem tail_keeps_arg (b : Ref sig .tc) (hb : b = main_arg0 ∨ b = main_arg1) :
    ∀ op ∈ (List.flatten [hostOps1] : List (HloOp τ sig (Elt F))), Proc.devRef .tc b ∉ op.writes := by
  intro op hop
  simp only [List.flatten_cons, List.flatten_nil, List.append_nil, hostOps1, List.mem_cons, List.mem_nil_iff, or_false] at hop
  rcases hb with rfl | rfl <;>
  rcases hop with rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-- An argument array holds its launch contents at the end. -/
theorem W₂_arg (c : Dev nD) (b : Ref sig .tc) (hb : b = main_arg0 ∨ b = main_arg1) :
    W₂ m c (Proc.devRef .tc b) = m ((c : Thread nD τ).loc b) := by
  have hne : b ≠ main_v18 := by rcases hb with rfl | rfl <;> decide
  unfold W₂
  rw [StableHlo.after_of_forall_not_mem _ _ (tail_keeps_arg b hb), W₁_of_ne m c b hne]
  exact StableHlo.after_of_forall_not_mem _ _ (prefix_keeps_arg b hb)

theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (W₂_arg m c main_arg0 (.inl rfl)),
      ((h c).2 main_arg1 arg1_rest).trans (W₂_arg m c main_arg1 (.inr rfl))⟩) (run_main m ρ)

end Cert.KernelIdeal.Hand

end
-- ==== Proof.KernelIdeal.Result.lean ====
/- The program's result as a term: the loss computed by the host operations after the region from the vector of
   positives (each half the row products of the two normalized inputs, summed along the rows) and the vector of
   denominators (the region's output column, reshaped). -/
import proofs.«135226_j9397388444288_1_alg».proof.Proof.KernelIdeal.Frame

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The mean over the 8192 rows of `-(p / ½) + log d`. -/
def lossTail (p d : (⟨S8192, .f32⟩ : BufTy).Contents (Elt F)) : (⟨S_, .f32⟩ : BufTy).Contents (Elt F) :=
  Host.divf
    (Host.reduceAdd
      (addf (Host.negf (Host.divf p (broadcastInDim S8192 ![] bcast_S_S8192 (constant S_ .f32 0x3F000000#32)))) (Host.log d))
      (constant S_ .f32 0x00000000#32) reducesTo_S8192_S_d0 h_S_)
    (constant S_ .f32 0x46000000#32)

/-- Row by row, the inner product of two arrays' rows. -/
def posHalf (u v : (⟨S4096x256, .f32⟩ : BufTy).Contents (Elt F)) : (⟨S4096, .f32⟩ : BufTy).Contents (Elt F) :=
  Host.reduceAdd (mulf u v) (constant S_ .f32 0x00000000#32) reducesTo_S4096x256_S4096_d1 h_S_

/-- Two vectors of 4096 stacked. -/
def posVec (h1 h2 : (⟨S4096, .f32⟩ : BufTy).Contents (Elt F)) : (⟨S8192, .f32⟩ : BufTy).Contents (Elt F) :=
  concatenate S8192 0 [⟨S4096, h1⟩, ⟨S4096, h2⟩] concatenates_S4096_S4096_S8192_d0

/-- A column of 8192 as a vector. -/
def denomVec (o : (⟨S8192x1, .f32⟩ : BufTy).Contents (Elt F)) : (⟨S8192, .f32⟩ : BufTy).Contents (Elt F) :=
  shapeCast S8192 o shapeCasts_S8192x1_S8192

variable (m : (ℓ : Loc nD τ sig) → Buf (Elt F) ℓ) (ρ : Dev nD → PrngReg)

/-- The result on core `c`. -/
def result (c : Dev nD) : Buf (Elt F) ((c.tc : Thread nD τ).loc main_v29) :=
  lossTail (posVec (posHalf (V m c main_v7) (V m c main_v15)) (posHalf (V m c main_v7) (V m c main_v15)))
    (denomVec ((dats m 0 c).arrAt 2 cfg0.N))

/-- The result buffer at the end holds it. -/
theorem result_eq (c : Dev nD) : W₂ m c (Proc.devRef .tc main_v29) = result m c := by
  unfold W₂
  simp only [hostOps1, List.flatten_cons, List.flatten_nil, List.append_nil]
  after_results
  rw [W₁_of_ne m c main_v7 (by decide), W₁_of_ne m c main_v15 (by decide), W₁_out]
  rfl

theorem res_rest : main_v29 ∈ Pipeline.restRefs sig spec0 := Pipeline.mem_restRefs_of main_v29 rfl (by decide)

/-- THE RUN: the program terminates with its result at `result` and its arguments as launched. -/
theorem run : θ_run defs (onTc (τ := τ) (main (F := F))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v29 res_rest).trans (result_eq m c),
      ((h c).2 main_arg0 arg0_rest).trans (W₂_arg m c main_arg0 (.inl rfl)),
      ((h c).2 main_arg1 arg1_rest).trans (W₂_arg m c main_arg1 (.inr rfl))⟩) (run_main m ρ)

end Cert.KernelIdeal.Hand

end
-- ==== Proof.Spec.lean ====
/- The two quantities both programs compute from the stacked array `z` of 8192 normalized rows of length 256
   (rows 0 … 4095 from the first input, rows 4096 … 8191 from the second), as plain functions over the extended
   reals. `sim z a b` is the inner product of rows `a` and `b`; `denomAt z a` is the sum over every row `b ≠ a` of
   `exp (2 · sim z a b)`, written with an explicit 0/1 factor so that no term is dropped at an infinity;
   `posHalfAt u v r` is the inner product of row `r` of the first half with row `r` of the second. -/
import Idealize.ShloMosaic.PureOps.Ideal
import Idealize.ShloMosaic.Lib.ValueIdx

noncomputable section

open scoped BigOperators

namespace Cert.Spec

open Idealize.ShloMosaic Idealize.ShloMosaic.ValueIdx

/-- The stacked array's shape, and one half's. -/
abbrev Sz : Shape := ⟨2, ![8192, 256]⟩
abbrev Sh : Shape := ⟨2, ![4096, 256]⟩

/-- The inner product of rows `a` and `b`. -/
def sim (z : Sz.Idx → EReal) (a b : Fin 8192) : EReal := ∑ d : Fin 256, z (ix2 a d) * z (ix2 b d)

/-- One off the diagonal, zero on it. -/
def offDiag (a b : Fin 8192) : EReal := if a = b then 0 else 1

/-- Row `a`'s denominator: the off-diagonal exponentials of twice the inner products. -/
def denomAt (z : Sz.Idx → EReal) (a : Fin 8192) : EReal := ∑ b : Fin 8192, offDiag a b * Ideal.exp (sim z a b * 2)

/-- The inner product of row `r` of one half with row `r` of the other. -/
def posHalfAt (u v : Sh.Idx → EReal) (r : Fin 4096) : EReal := ∑ d : Fin 256, u (ix2 r d) * v (ix2 r d)

end Cert.Spec

end
-- ==== Proof.KernelIdeal.OutValue.lean ====
/- The denominator kernel's block value over the extended reals: row `p` of the column a grid point leaves is the
   denominator of the stacked array's row `512 i + p` — the eight chunk sums added up are one sum over all 8192
   rows, the 0/1 factor made from the row and column numbers is one off the diagonal and zero on it, and the
   matrix product against the transposed chunk is the inner product of two rows. Sums over the extended reals
   regroup freely (addition is commutative and associative there), so no finiteness is needed. -/
import proofs.«135226_j9397388444288_1_alg».proof.Proof.KernelIdeal.Out
import proofs.«135226_j9397388444288_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.OutValue

open Cert.KernelIdeal Cert.KernelIdeal.Gen Cert.KernelIdeal.Hand
open Idealize.ShloMosaic Idealize.ShloMosaic.ValueIdx

/-! ## Words -/

/-- The word `0x40000000` is the float two. -/
theorem two_f32 : Ideal.ofBits .f32 0x40000000#32 = 2 := by
  simp [Ideal.ofBits, Ideal.ieee, -EReal.coe_mul]
  norm_num
  rfl

/-- The 0/1 factor: a one-bit "not equal" widened to 32 bits and converted is exactly 0 on equal words and 1 otherwise. -/
theorem mask_word (x y : BitVec 32) :
    (FloatOps.sitofp (F := Ideal) .f32 ((IntOp.cmpi .ne x y).setWidth 32) : EReal) = if x = y then 0 else 1 := by
  show (((((IntOp.cmpi .ne x y).setWidth 32).toInt : ℝ)) : EReal) = _
  by_cases h : x = y
  · subst h
    simp [IntOp.cmpi]
  · have hb : (x != y) = true := by simpa using h
    simp [IntOp.cmpi, hb, h]

/-! ## The product tile at an index -/

theorem lhs_axis0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_axis1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_axis0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_axis1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The product of a 512 × 256 block with a 256 × 1024 one into the zero tile, at `(p, j)`: the inner product of row
    `p` of the first with column `j` of the second. -/
theorem matmul_zero_apply (a : FVec Ideal S512x256 .bf16) (b : FVec Ideal S256x1024 .bf16) (p : Fin 512) (j : Fin 1024) :
    matmul dot_S512x256_S256x1024_S512x1024_1_0_0_1_n_n none a b (constant (F := Ideal) S512x1024 .f32 0x00000000#32) (ix2 p j)
      = ∑ d : Fin 256, a (ix2 p d) * b (ix2 d j) := by
  simp only [matmul]
  rw [Ideal.matmul_constant_zero_apply, ← Equiv.sum_comp (contrEquiv1 dot_S512x256_S256x1024_S512x1024_1_0_0_1_n_n 256 rfl rfl).symm]
  refine Finset.sum_congr rfl fun d _ => ?_
  have hd := contrEquiv1_symm_val dot_S512x256_S256x1024_S512x1024_1_0_0_1_n_n 256 rfl rfl d
  have el : dot_S512x256_S256x1024_S512x1024_1_0_0_1_n_n.lhsIdx (ix2 p j) ((contrEquiv1 dot_S512x256_S256x1024_S512x1024_1_0_0_1_n_n 256 rfl rfl).symm d) = ix2 p d := funext fun x => Fin.ext (by
    match x with
    | ⟨0, _⟩ => exact lhs_axis0 _ _
    | ⟨1, _⟩ => exact (lhs_axis1 _ _).trans hd)
  have er : dot_S512x256_S256x1024_S512x1024_1_0_0_1_n_n.rhsIdx (ix2 p j) ((contrEquiv1 dot_S512x256_S256x1024_S512x1024_1_0_0_1_n_n 256 rfl rfl).symm d) = ix2 d j := funext fun x => Fin.ext (by
    match x with
    | ⟨0, _⟩ => exact (rhs_axis0 _ _).trans hd
    | ⟨1, _⟩ => exact rhs_axis1 _ _)
  rw [el, er]

/-- The tile of inner products of the query block's rows with one chunk's rows. -/
theorem tile_apply (a : FVec Ideal S512x256 .bf16) (kc : FVec Ideal S1024x256 .bf16) (p : Fin 512) (j : Fin 1024) :
    matmul dot_S512x256_S256x1024_S512x1024_1_0_0_1_n_n none a
        (transpose S256x1024 [1, 0] (shapeCast S1024x256 kc shapeCasts_S1024x256_S1024x256) transposes_S1024x256_p1_0_S256x1024)
        (constant (F := Ideal) S512x1024 .f32 0x00000000#32) (ix2 p j)
      = ∑ d : Fin 256, a (ix2 p d) * kc (ix2 j d) := by
  refine (matmul_zero_apply a _ p j).trans ?_
  refine Finset.sum_congr rfl fun d _ => ?_
  rw [shapeCast_self]
  exact congrArg (a (ix2 p d) * ·) (transpose_ix2_apply kc transposes_S1024x256_p1_0_S256x1024 d j)

/-! ## One chunk's column -/

/-- One chunk's column of masked row sums, from the tile of inner products and the tiles of global row and column
    numbers: each entry doubled and exponentiated, zeroed where the two numbers agree, and each row summed. -/
def chunkCol (M : FVec Ideal S512x1024 .f32) (rid cid : IVec S512x1024 32) : FVec Ideal S512x1 .f32 :=
  shapeCast S512x1
    (multiReduction (F := Ideal) .add [1] S512
      (mulf (sitofp .f32 (extui 32 (cmpi .ne rid cid) natLt_1_32))
        (exp (mulf M (broadcast S512x1024 (Scalar.ofBits (F := Ideal) .f32 0x40000000#32)))))
      0x00000000#32 reduces_S512x1024_S512 (.inl rfl) rfl)
    shapeCasts_S512_S512x1

theorem chunkCol_apply (M : FVec Ideal S512x1024 .f32) (rid cid : IVec S512x1024 32) (p : Fin 512) :
    chunkCol M rid cid (ix2 p 0)
      = ∑ j : Fin 1024, (if rid (ix2 p j) = cid (ix2 p j) then 0 else 1) * Ideal.exp (M (ix2 p j) * 2) := by
  unfold chunkCol
  refine (shapeCast_apply _ shapeCasts_S512_S512x1 (ix2 p 0) (ix1 p) (by
    rw [Shape.rowMajor_val_one, Shape.rowMajor_val_two]
    show p.val = p.val * 1 + 0
    omega)).trans ?_
  refine (Ideal.multiReduction_add_single _ 0x00000000#32 reduces_S512x1024_S512 (.inl rfl) rfl (ix1 p)).trans ?_
  refine Finset.sum_congr rfl fun j _ => ?_
  have hl : reduces_S512x1024_S512.lift (ix1 p) j = ix2 p j := funext fun a => Fin.ext (by
    match a with
    | ⟨0, _⟩ => rfl
    | ⟨1, _⟩ => rfl)
  rw [hl]
  show (FloatOps.sitofp (F := Ideal) .f32 ((IntOp.cmpi .ne (rid (ix2 p j)) (cid (ix2 p j))).setWidth 32) : EReal)
      * Ideal.exp (M (ix2 p j) * Ideal.ofBits .f32 0x40000000#32) = _
  rw [mask_word, two_f32]

/-! ## Row and column numbers -/

/-- The tile of global row numbers: the block's first row number plus the row inside the block. -/
def rowIds (v0 : BitVec 32) : IVec S512x1024 32 :=
  addi (broadcast S512x1024 v0) (iota .tc S512x1024 32 [0] iota_S512x1024_d0_w32)
/-- The tile of global column numbers: the chunk's first row number plus the column inside the tile. -/
def colIds (w : BitVec 32) : IVec S512x1024 32 :=
  addi (broadcast S512x1024 w) (iota .tc S512x1024 32 [1] iota_S512x1024_d1_w32)

theorem rowIds_apply (v0 : BitVec 32) (p : Fin 512) (j : Fin 1024) : rowIds v0 (ix2 p j) = v0 + BitVec.ofNat 32 p.val := by
  show IntOp.addi v0 (iota .tc S512x1024 32 [0] iota_S512x1024_d0_w32 (ix2 p j)) = _
  rw [iota_single_apply]
  rfl
theorem colIds_apply (w : BitVec 32) (p : Fin 512) (j : Fin 1024) : colIds w (ix2 p j) = w + BitVec.ofNat 32 j.val := by
  show IntOp.addi w (iota .tc S512x1024 32 [1] iota_S512x1024_d1_w32 (ix2 p j)) = _
  rw [iota_single_apply]
  rfl

/-- The 32-bit row and column numbers do not wrap (all are below 8192), so they agree exactly when the numbers do. -/
theorem ids_eq_iff (i c p j : Nat) (hi : i < 16) (hc : c < 8) (hp : p < 512) (hj : j < 1024) :
    Scalar.muli (BitVec.ofNat 32 i) 512#32 + BitVec.ofNat 32 p = Scalar.muli (BitVec.ofNat 32 c) 1024#32 + BitVec.ofNat 32 j
      ↔ i * 512 + p = c * 1024 + j := by
  unfold Scalar.muli IntOp.muli
  rw [← BitVec.toNat_inj]
  simp only [BitVec.toNat_add, BitVec.toNat_mul, BitVec.toNat_ofNat]
  omega

/-! ## One chunk's term -/

/-- The tile of inner products of the query block's rows with one chunk's rows. -/
def tile (a : FVec Ideal S512x256 .bf16) (kc : FVec Ideal S1024x256 .bf16) : FVec Ideal S512x1024 .f32 :=
  matmul dot_S512x256_S256x1024_S512x1024_1_0_0_1_n_n none a
    (transpose S256x1024 [1, 0] (shapeCast S1024x256 kc shapeCasts_S1024x256_S1024x256) transposes_S1024x256_p1_0_S256x1024)
    (constant (F := Ideal) S512x1024 .f32 0x00000000#32)

/-- Chunk `c`'s column: the masked row sums of its tile. -/
def term (v0 : BitVec 32) (a : FVec Ideal S512x256 .bf16) (c : BitVec 32) (kc : FVec Ideal S1024x256 .bf16) : FVec Ideal S512x1 .f32 :=
  chunkCol (tile a kc) (rowIds v0) (colIds (Scalar.muli c 1024#32))

/-- Row `p` of chunk `c`'s column is the part of row `512 i + p`'s denominator that runs over rows
    `1024 c … 1024 c + 1023`. -/
theorem term_apply (zb : Cert.Spec.Sz.Idx → EReal) (i c : Nat) (hi : i < 16) (hc : c < 8)
    (a : FVec Ideal S512x256 .bf16) (kc : FVec Ideal S1024x256 .bf16)
    (ha : ∀ (p : Fin 512) (d : Fin 256), a (ix2 p d) = zb (ix2 ⟨i * 512 + p.val, by omega⟩ d))
    (hk : ∀ (j : Fin 1024) (d : Fin 256), kc (ix2 j d) = zb (ix2 ⟨c * 1024 + j.val, by omega⟩ d)) (p : Fin 512) :
    term (Scalar.muli (BitVec.ofNat 32 i) 512#32) a (BitVec.ofNat 32 c) kc (ix2 p 0)
      = ∑ j : Fin 1024, Cert.Spec.offDiag ⟨i * 512 + p.val, by omega⟩ ⟨c * 1024 + j.val, by omega⟩
          * Ideal.exp (Cert.Spec.sim zb ⟨i * 512 + p.val, by omega⟩ ⟨c * 1024 + j.val, by omega⟩ * 2) := by
  unfold term
  refine (chunkCol_apply _ _ _ p).trans ?_
  refine Finset.sum_congr rfl fun j _ => ?_
  rw [rowIds_apply, colIds_apply]
  have hM : tile a kc (ix2 p j) = Cert.Spec.sim zb ⟨i * 512 + p.val, by omega⟩ ⟨c * 1024 + j.val, by omega⟩ := by
    unfold tile Cert.Spec.sim
    refine (tile_apply a kc p j).trans ?_
    exact Finset.sum_congr rfl fun d _ => by rw [ha p d, hk j d]
  rw [hM]
  congr 1
  unfold Cert.Spec.offDiag
  by_cases h : i * 512 + p.val = c * 1024 + j.val
  · rw [if_pos ((ids_eq_iff i c p.val j.val hi hc p.isLt j.isLt).mpr h), if_pos (Fin.ext h)]
  · rw [if_neg (fun e => h ((ids_eq_iff i c p.val j.val hi hc p.isLt j.isLt).mp e)), if_neg (fun e => h (congrArg Fin.val e))]

/-! ## The eight chunks are one sum -/

/-- Rows `0 … 8191` are eight runs of 1024. -/
def chunkEquiv : Fin 8 × Fin 1024 ≃ Fin 8192 where
  toFun x := ⟨x.1.val * 1024 + x.2.val, by omega⟩
  invFun b := (⟨b.val / 1024, by omega⟩, ⟨b.val % 1024, by omega⟩)
  left_inv x := by
    refine Prod.ext (Fin.ext ?_) (Fin.ext ?_)
    · show (x.1.val * 1024 + x.2.val) / 1024 = x.1.val
      omega
    · show (x.1.val * 1024 + x.2.val) % 1024 = x.2.val
      omega
  right_inv b := Fin.ext (by
    show b.val / 1024 * 1024 + b.val % 1024 = b.val
    omega)

/-- A sum over all 8192 rows is the eight chunk sums added up from zero, in the order the body adds them. -/
theorem sum_chunks (f : Fin 8192 → EReal) :
    0 + (∑ j : Fin 1024, f ⟨0 * 1024 + j.val, by omega⟩) + (∑ j : Fin 1024, f ⟨1 * 1024 + j.val, by omega⟩)
        + (∑ j : Fin 1024, f ⟨2 * 1024 + j.val, by omega⟩) + (∑ j : Fin 1024, f ⟨3 * 1024 + j.val, by omega⟩)
        + (∑ j : Fin 1024, f ⟨4 * 1024 + j.val, by omega⟩) + (∑ j : Fin 1024, f ⟨5 * 1024 + j.val, by omega⟩)
        + (∑ j : Fin 1024, f ⟨6 * 1024 + j.val, by omega⟩) + (∑ j : Fin 1024, f ⟨7 * 1024 + j.val, by omega⟩)
      = ∑ b : Fin 8192, f b := by
  rw [← Equiv.sum_comp chunkEquiv f, Fintype.sum_prod_type, Fin.sum_univ_eight, zero_add]
  rfl

/-! ## The block's column -/

/-- The body's running column: zero, then the eight chunk columns added in order. -/
theorem outVal_eq (i : grid0.Coords) (q : Vec Ideal S512x256 .bf16) (k : Fin 8 → Vec Ideal S1024x256 .bf16) :
    outVal (F := Ideal) i q k
      = addf (addf (addf (addf (addf (addf (addf (addf
          (broadcast S512x1 (Scalar.ofBits (F := Ideal) .f32 0x00000000#32))
          (term (Scalar.muli (BitVec.ofNat 32 (i 0).val) 512#32) (k0_pay2 q) 0#32 (k 0)))
          (term (Scalar.muli (BitVec.ofNat 32 (i 0).val) 512#32) (k0_pay2 q) 1#32 (k 1)))
          (term (Scalar.muli (BitVec.ofNat 32 (i 0).val) 512#32) (k0_pay2 q) 2#32 (k 2)))
          (term (Scalar.muli (BitVec.ofNat 32 (i 0).val) 512#32) (k0_pay2 q) 3#32 (k 3)))
          (term (Scalar.muli (BitVec.ofNat 32 (i 0).val) 512#32) (k0_pay2 q) 4#32 (k 4)))
          (term (Scalar.muli (BitVec.ofNat 32 (i 0).val) 512#32) (k0_pay2 q) 5#32 (k 5)))
          (term (Scalar.muli (BitVec.ofNat 32 (i 0).val) 512#32) (k0_pay2 q) 6#32 (k 6)))
          (term (Scalar.muli (BitVec.ofNat 32 (i 0).val) 512#32) (k0_pay2 q) 7#32 (k 7)) := rfl

/-- Row `p` of the column point `i` leaves is the denominator of row `512 i + p` of the stacked array `zb`, when the
    query block holds rows `512 i …` of `zb` and chunk `r` holds rows `1024 r …`. -/
theorem outVal_eq_denom (zb : Cert.Spec.Sz.Idx → EReal) (i : grid0.Coords) (hi : (i 0).val < 16)
    (q : Vec Ideal S512x256 .bf16) (k : Fin 8 → Vec Ideal S1024x256 .bf16)
    (hq : ∀ (p : Fin 512) (d : Fin 256), q (ix2 p d) = zb (ix2 ⟨(i 0).val * 512 + p.val, by omega⟩ d))
    (hk : ∀ (r : Fin 8) (j : Fin 1024) (d : Fin 256), k r (ix2 j d) = zb (ix2 ⟨r.val * 1024 + j.val, by omega⟩ d))
    (p : Fin 512) :
    outVal (F := Ideal) i q k (ix2 p 0) = Cert.Spec.denomAt zb ⟨(i 0).val * 512 + p.val, by omega⟩ := by
  have hv2 : k0_pay2 (F := Ideal) q = q := by
    unfold k0_pay2
    exact shapeCast_self q _
  have e0 := term_apply zb (i 0).val 0 hi (by omega) q (k 0) hq (hk 0) p
  have e1 := term_apply zb (i 0).val 1 hi (by omega) q (k 1) hq (hk 1) p
  have e2 := term_apply zb (i 0).val 2 hi (by omega) q (k 2) hq (hk 2) p
  have e3 := term_apply zb (i 0).val 3 hi (by omega) q (k 3) hq (hk 3) p
  have e4 := term_apply zb (i 0).val 4 hi (by omega) q (k 4) hq (hk 4) p
  have e5 := term_apply zb (i 0).val 5 hi (by omega) q (k 5) hq (hk 5) p
  have e6 := term_apply zb (i 0).val 6 hi (by omega) q (k 6) hq (hk 6) p
  have e7 := term_apply zb (i 0).val 7 hi (by omega) q (k 7) hq (hk 7) p
  rw [outVal_eq, hv2]
  show Ideal.ofBits .f32 0x00000000#32
        + term (Scalar.muli (BitVec.ofNat 32 (i 0).val) 512#32) q (BitVec.ofNat 32 0) (k 0) (ix2 p 0)
        + term (Scalar.muli (BitVec.ofNat 32 (i 0).val) 512#32) q (BitVec.ofNat 32 1) (k 1) (ix2 p 0)
        + term (Scalar.muli (BitVec.ofNat 32 (i 0).val) 512#32) q (BitVec.ofNat 32 2) (k 2) (ix2 p 0)
        + term (Scalar.muli (BitVec.ofNat 32 (i 0).val) 512#32) q (BitVec.ofNat 32 3) (k 3) (ix2 p 0)
        + term (Scalar.muli (BitVec.ofNat 32 (i 0).val) 512#32) q (BitVec.ofNat 32 4) (k 4) (ix2 p 0)
        + term (Scalar.muli (BitVec.ofNat 32 (i 0).val) 512#32) q (BitVec.ofNat 32 5) (k 5) (ix2 p 0)
        + term (Scalar.muli (BitVec.ofNat 32 (i 0).val) 512#32) q (BitVec.ofNat 32 6) (k 6) (ix2 p 0)
        + term (Scalar.muli (BitVec.ofNat 32 (i 0).val) 512#32) q (BitVec.ofNat 32 7) (k 7) (ix2 p 0) = _
  rw [Ideal.ofBits_zero_f32, e0, e1, e2, e3, e4, e5, e6, e7]
  exact sum_chunks fun b => Cert.Spec.offDiag ⟨(i 0).val * 512 + p.val, by omega⟩ b
    * Ideal.exp (Cert.Spec.sim zb ⟨(i 0).val * 512 + p.val, by omega⟩ b * 2)

end Cert.KernelIdeal.OutValue

end
-- ==== Proof.KernelIdeal.Value.lean ====
/- The output column after the run, over the extended reals: entry `a` is the denominator of row `a` of the stacked
   array as the region finds it. Grid point `t` writes back rows `512 t … 512 t + 511`; the sixteen points' blocks tile
   the column; the query block at point `t` is rows `512 t …` of the stacked array and the resident window is the whole
   of it, so chunk `r` is rows `1024 r …`. -/
import proofs.«135226_j9397388444288_1_alg».proof.Proof.KernelIdeal.Data
import proofs.«135226_j9397388444288_1_alg».proof.Proof.KernelIdeal.OutValue
import proofs.«135226_j9397388444288_1_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The zero offsets, however they are spelt. -/
theorem zero_off : (![0, 0] : Fin 2 → Nat) = fun _ => 0 := funext fun a => by fin_cases a <;> rfl

/-- The column of denominators of a stacked array: entry `(a, 0)` is row `a`'s denominator. -/
def denomCol (z : Cert.Spec.Sz.Idx → EReal) : S8192x1.Idx → EReal :=
  fun i => Cert.Spec.denomAt z ⟨(i 0).val, idx2_lt0 i⟩

/-- The windows' index maps over the sixteen points: the query block and the output block move with the point along
    the rows, the resident window stays at the origin, and the point's one coordinate is its number. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ (grid0.coords t 0).val = t.val :=
  (by decide +kernel : ∀ t : Fin grid0.N, _)

/-- The query window's block at point `t` is rows `512 t … 512 t + 511` of the stacked array. -/
theorem query_block_apply (c : Dev nD) (t : Fin cfg0.N) (x : S512x256.Idx) (k : S8192x256.Idx)
    (hk0 : (k 0).val = t.val * 512 + (x 0).val) (hk1 : (k 1).val = (x 1).val) :
    (iblk m c 0 t : Vec Ideal S512x256 .bf16) x = (V m c main_v17 : S8192x256.Idx → Elt Ideal .bf16) k := by
  obtain ⟨e0, e1, -, -, -, -, -⟩ := index_facts t
  unfold iblk
  rw [View.read_apply]
  show (V m c main_v17 : S8192x256.Idx → Elt Ideal .bf16) _ = V m c main_v17 k
  refine congrArg (V m c main_v17 : S8192x256.Idx → Elt Ideal .bf16) (funext fun a => Fin.ext ?_)
  match a with
  | ⟨0, _⟩ => show win0_0.index t (0 : Fin 2) * 512 + 1 * (x 0).val = (k 0).val; omega
  | ⟨1, _⟩ => show win0_0.index t (1 : Fin 2) * 256 + 1 * (x 1).val = (k 1).val; omega

/-- The resident window's block at every point is the whole stacked array. -/
theorem resident_block_apply (c : Dev nD) (t : Fin cfg0.N) (x : S8192x256.Idx) :
    (iblk m c 1 t : Vec Ideal S8192x256 .bf16) x = (V m c main_v17 : S8192x256.Idx → Elt Ideal .bf16) x := by
  obtain ⟨-, -, e0, e1, -, -, -⟩ := index_facts t
  unfold iblk
  rw [View.read_apply]
  show (V m c main_v17 : S8192x256.Idx → Elt Ideal .bf16) _ = V m c main_v17 x
  refine congrArg (V m c main_v17 : S8192x256.Idx → Elt Ideal .bf16) (funext fun a => Fin.ext ?_)
  match a with
  | ⟨0, _⟩ => show win0_1.index t (0 : Fin 2) * 8192 + 1 * (x 0).val = (x 0).val; omega
  | ⟨1, _⟩ => show win0_1.index t (1 : Fin 2) * 256 + 1 * (x 1).val = (x 1).val; omega

/-- What point `t` writes back is its block of the column of denominators: the body's one store leaves the masked
    row sums of the query block against the eight chunks of the resident array, the query block is rows `512 t …`
    of the stacked array and chunk `r` is rows `1024 r …` of it, so row `p` of the block is the denominator of row
    `512 t + p`, which is where the output block's row `p` sits in the column. -/
theorem flushed_eq (c : Dev nD) (t : Fin cfg0.N) :
    (dats (F := Ideal) m 0 c).flushed 2 t
      = ((cfg0.win 2).blk t).view.read (Elt Ideal) (denomCol (V m c main_v17)) := by
  obtain ⟨-, -, -, -, e0, e1, eg⟩ := index_facts t
  have ht : t.val < grid0.N := t.isLt
  rw [N_0] at ht
  show (cfg0.win 2).cut (grid0.coords t) ((dats m 0 c).after 2 t) = _
  rw [after0_2]
  unfold outBlk
  rw [View.canon_unit_zero zero_off]
  funext (j : S512x1.Idx)
  obtain ⟨p, q, rfl⟩ : ∃ (p : Fin 512) (q : Fin 1), j = ix2 p q := ⟨j 0, j 1, eq_ix2 j⟩
  obtain rfl : q = 0 := Subsingleton.elim _ _
  show outVal (F := Ideal) (grid0.coords t) (View.ld (iblk m c 0 t) rq) (fun r => View.ld (iblk m c 1 t) (rk r)) (ix2 p 0)
    = denomCol (V m c main_v17) (((cfg0.win 2).blk t).view.emb (ix2 p 0))
  rw [OutValue.outVal_eq_denom (V m c main_v17) (grid0.coords t) (by omega) _ _ ?hq ?hk p]
  case hq =>
    intro p d
    show iblk m c 0 t (rq.idx (ix2 p d)) = _
    refine query_block_apply m c t _ _ ?_ ?_
    · show (grid0.coords t 0).val * 512 + p.val = t.val * 512 + (0 + 1 * p.val)
      omega
    · show d.val = 0 + 1 * d.val
      omega
  case hk =>
    intro r j d
    show iblk m c 1 t ((rk r).idx (ix2 j d)) = _
    rw [resident_block_apply]
    refine congrArg (V m c main_v17 : S8192x256.Idx → Elt Ideal .bf16) (funext fun a => Fin.ext ?_)
    match a with
    | ⟨0, _⟩ =>
      show k0_off1 (BitVec.ofNat 32 r.val) 0 + 1 * j.val = r.val * 1024 + j.val
      rw [k0_off1_eq r]
      show 1024 * r.val + 1 * j.val = r.val * 1024 + j.val
      omega
    | ⟨1, _⟩ =>
      show k0_off1 (BitVec.ofNat 32 r.val) 1 + 1 * d.val = d.val
      rw [k0_off1_eq r]
      show 0 + 1 * d.val = d.val
      omega
  unfold denomCol
  refine congrArg (Cert.Spec.denomAt _) (Fin.ext ?_)
  show (grid0.coords t 0).val * 512 + p.val = win0_2.index t (0 : Fin 2) * 512 + 1 * p.val
  omega

/-- An entry of the column is in point `t`'s block iff each coordinate is in the block's range on its axis. -/
theorem mem_out_block (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v18).slice (win0_2.rect t)).set ↔ _
  rw [View.set_slice_whole, Rect.mem_set_unit]
  exact Iff.rfl

/-- The sixteen blocks tile the column: row `a` lies in the block of point `a / 512`. -/
theorem out_cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  obtain ⟨t, ht⟩ : ∃ t : Fin cfg0.N, t.val = (i 0).val / 512 :=
    ⟨⟨(i 0).val / 512, by show _ < grid0.N; rw [N_0]; omega⟩, rfl⟩
  obtain ⟨-, -, -, -, e0, e1, -⟩ := index_facts t
  refine ⟨t, flush0_2 t, ?_⟩
  rw [mem_out_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1 ≤ (i 1).val ∧ (i 1).val < win0_2.index t (1 : Fin 2) * 1 + 1
    omega

/-- The output column after the run is the column of denominators of the stacked array. -/
theorem out_array (c : Dev nD) : (dats (F := Ideal) m 0 c).arrAt 2 cfg0.N = denomCol (V m c main_v17) :=
  (dats m 0 c).arrAt_eq_of_cover 2 (denomCol (V m c main_v17)) (fun t _ => flushed_eq m c t) out_cover

/-- Entry `a` of the output column after the run is row `a`'s denominator. -/
theorem out_denom (c : Dev nD) (a : Fin 8192) :
    (dats (F := Ideal) m 0 c).arrAt 2 cfg0.N (ix2 a 0) = Cert.Spec.denomAt (V m c main_v17) a := by
  rw [out_array]
  rfl

end Cert.KernelIdeal.Hand

end
-- ==== Proof.RefSim.lean ====
/- The reference's similarity matrix and stacked array read at an index: entry (a, b) of the product of the stacked
   array with its transpose is the inner product of rows a and b; the stacked array's rows below 4096 are the first
   normalized input's rows, the rows from 4096 on the second's. -/
import proofs.«135226_j9397388444288_1_alg».proof.Proof.Gen.ReferenceIdeal.Read
import proofs.«135226_j9397388444288_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx

abbrev Arr := (⟨S4096x256, .f32⟩ : BufTy).Contents (Elt Ideal)

/-- The left factor's index for entry (a, b) and contraction position k is (a, k). -/
theorem sim_lidx_eq (a b : Fin 8192) (k : Fin 256) : lidx_main_v18 (ix2 a b) k = ix2 a k := by
  funext c
  match c with
  | ⟨0, _⟩ => rfl
  | ⟨1, _⟩ => rfl

/-- The right factor is the transpose: its index (k, b) reads the stacked array at (b, k). -/
theorem sim_ridx_eq (a b : Fin 8192) (k : Fin 256) : idx_main_v17 (ridx_main_v18 (ix2 a b) k) = ix2 b k := by
  funext c
  match c with
  | ⟨0, _⟩ => rfl
  | ⟨1, _⟩ => rfl

/-- Entry (a, b) of the similarity matrix is the inner product of rows a and b of the stacked array. -/
theorem sim_apply (x0 x1 : Arr) (a b : Fin 8192) :
    val_main_v18 (F := Ideal) x0 x1 (ix2 a b) = Cert.Spec.sim (val_main_v16 (F := Ideal) x0 x1) a b := by
  rw [val_main_v18_apply]
  unfold Cert.Spec.sim
  refine Finset.sum_congr rfl fun k _ => ?_
  rw [val_main_v17_apply, sim_lidx_eq, sim_ridx_eq]

/-- The stacked array's lower rows are the first normalized input's. -/
theorem z_lo (x0 x1 : Arr) (r : Fin 4096) (d : Fin 256) :
    val_main_v16 (F := Ideal) x0 x1 (ix2 (⟨r.val, by omega⟩ : Fin 8192) d) = val_main_v7 (F := Ideal) x0 (ix2 r d) := by
  unfold val_main_v16
  -- the row coordinate is below the first piece's 4096 rows: the joined array reads the first piece there
  exact concatenate_pair_apply_left (t := S8192x256) (s₁ := S4096x256) (s₂ := S4096x256) 0 _ _ _ _ rfl (ix2 r d)
    (fun c => by
      match c with
      | ⟨0, _⟩ => rfl
      | ⟨1, _⟩ => rfl)

/-- Its upper rows are the second's. -/
theorem z_hi (x0 x1 : Arr) (r : Fin 4096) (d : Fin 256) :
    val_main_v16 (F := Ideal) x0 x1 (ix2 (⟨r.val + 4096, by omega⟩ : Fin 8192) d) = val_main_v15 (F := Ideal) x1 (ix2 r d) := by
  unfold val_main_v16
  -- the row coordinate is r + 4096, past the first piece: the joined array reads the second piece at row r
  exact concatenate_pair_apply_right (t := S8192x256) (s₁ := S4096x256) (s₂ := S4096x256) 0 _ _ _ _ rfl rfl (ix2 r d)
    (fun c hc => by
      match c with
      | ⟨0, _⟩ => exact absurd rfl hc
      | ⟨1, _⟩ => rfl)
    rfl

end Cert.ReferenceIdeal.RefValue

end
-- ==== Proof.LibGatherPair.lean ====
/- A gather of single entries of a matrix through a table of index pairs, read at one row of the table.

   The operand is an [A, B] matrix, the start indices an [n, 2] table whose row p holds a pair of index words, the
   result a vector of length n: both operand axes are collapsed and start-indexed (slice sizes 1 × 1), there are no
   offset and no batching axes, and the index vector lies along the table's axis 1. Entry p of the result is the
   matrix at (i₀, i₁), where i₀ and i₁ are the two words of row p read as signed integers and clamped into
   [0, A − 1] and [0, B − 1] (`gather_pair_apply`).

   Around it, the three small facts by which such a table is read when it is built from two columns of index words:
   a table joined from two [n, 1] columns holds in row p the two columns' entries at p (`join_cols_left`,
   `join_cols_right`); a word that reads a natural number below 2³¹ is not negative, so a wrap of negative indices
   leaves it as it is (`wrap_of_small`); and read signed and clamped to a bound it does not exceed, it is that number
   (`clamp_of_small`). Together: the gather through such a table, at a row whose two words read in-range numbers
   a₀ and a₁, is the matrix at (a₀, a₁) (`gather_join_cols`). -/
import Idealize.ShloMosaic.Lib.ValueIdx
import Idealize.ShloMosaic.Lib.Pipeline.Value
import Idealize.ShloMosaic.Lib.StableHlo.Predicate

noncomputable section

namespace Cert.LibGatherPair

open Idealize.ShloMosaic Idealize.ShloMosaic.ValueIdx

/-- Where entry `p` of the result reads component `c` of its start index: row `p` of the table, column `c`. -/
theorem siIdx_pair {A B n : Nat} (d : GatherDims ⟨2, ![A, B]⟩ ⟨2, ![n, 2]⟩ ⟨1, ![n]⟩) (hivd : d.indexVectorDim = 1)
    (p : Fin n) (c : Fin d.startIndexMap.length) (k : Fin 2) (hc : c.val = k.val) :
    d.siIdx (ix1 p) c = ix2 p k := by
  funext b
  match b with
  | ⟨0, _⟩ =>
    -- the table's axis 0 is the result's one batch axis: it carries the result's coordinate
    unfold GatherDims.siIdx
    rw [dif_neg (by rw [hivd]; simp)]
    unfold GatherDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    -- the table's axis 1 is the index vector's: it carries the component's number
    unfold GatherDims.siIdx
    rw [dif_pos (by rw [hivd])]
    apply Fin.ext
    exact hc

/-- Entry `p` of the gather is the matrix at the clamped signed readings of the two words of row `p`. -/
theorem gather_pair_apply {α : Type} {A B n w : Nat} (d : GatherDims ⟨2, ![A, B]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![A, B]⟩ : Shape).Idx → α) (idx : IVec ⟨2, ![n, 2]⟩ w) (p : Fin n) (hA : 0 < A) (hB : 0 < B) :
    Host.gather d x idx (ix1 p) =
      x (ix2 (⟨min (idx (ix2 p (0 : Fin 2))).toInt.toNat (A - 1), by omega⟩ : Fin A)
             (⟨min (idx (ix2 p (1 : Fin 2))).toInt.toNat (B - 1), by omega⟩ : Fin B)) := by
  unfold Host.gather
  congr 1
  funext a
  apply Fin.ext
  have hb : ∀ a : Fin 2, a ∉ d.operandBatchingDims := fun a => by rw [hob]; exact List.not_mem_nil
  have hk : ∀ a : Fin 2, a ∉ d.sKept := fun a => by
    rw [GatherDims.mem_sKept, hcoll]
    match a with
    | ⟨0, _⟩ => simp
    | ⟨1, _⟩ => simp
  match a with
  | ⟨0, _⟩ =>
    have hm : (0 : Fin 2) ∈ d.startIndexMap := by rw [hsim]; simp
    have hsl : d.sliceSizes (0 : Fin 2) = 1 := d.slice_collapsed 0 (by rw [hcoll]; simp)
    show d.start (ix1 p) idx (0 : Fin 2) + d.batchCoord (ix1 p) (0 : Fin 2) + d.offCoord (ix1 p) (0 : Fin 2) = _
    rw [GatherDims.batchCoord_eq_zero _ _ _ (hb 0), GatherDims.offCoord_eq_zero _ _ _ (hk 0)]
    simp only [Nat.add_zero, GatherDims.start, dif_pos hm]
    rw [siIdx_pair d hivd p _ (0 : Fin 2) (by show List.idxOf (0 : Fin 2) d.startIndexMap = 0; rw [hsim]; simp), hsl]
    rfl
  | ⟨1, _⟩ =>
    have hm : (1 : Fin 2) ∈ d.startIndexMap := by rw [hsim]; simp
    have hsl : d.sliceSizes (1 : Fin 2) = 1 := d.slice_collapsed 1 (by rw [hcoll]; simp)
    show d.start (ix1 p) idx (1 : Fin 2) + d.batchCoord (ix1 p) (1 : Fin 2) + d.offCoord (ix1 p) (1 : Fin 2) = _
    rw [GatherDims.batchCoord_eq_zero _ _ _ (hb 1), GatherDims.offCoord_eq_zero _ _ _ (hk 1)]
    simp only [Nat.add_zero, GatherDims.start, dif_pos hm]
    rw [siIdx_pair d hivd p _ (1 : Fin 2) (by show List.idxOf (1 : Fin 2) d.startIndexMap = 1; rw [hsim]; simp), hsl]
    rfl

/-- Column 0 of row `p` of a table joined from two columns is the first column's entry at `p`. -/
theorem join_cols_left {α : Type} {n : Nat} (c₀ c₁ : (⟨2, ![n, 1]⟩ : Shape).Idx → α)
    (h : Shape.Concatenates [(⟨2, ![n, 1]⟩ : Shape), ⟨2, ![n, 1]⟩] ⟨2, ![n, 2]⟩ (1 : Fin 2)) (p : Fin n) :
    concatenate (⟨2, ![n, 2]⟩ : Shape) (1 : Fin 2) [⟨⟨2, ![n, 1]⟩, c₀⟩, ⟨⟨2, ![n, 1]⟩, c₁⟩] h (ix2 p (0 : Fin 2))
      = c₀ (ix2 p (0 : Fin 1)) :=
  concatenate_pair_apply_left (1 : Fin 2) c₀ c₁ h (ix2 p (0 : Fin 2)) rfl (ix2 p (0 : Fin 1)) (fun b => by
    match b with
    | ⟨0, _⟩ => rfl
    | ⟨1, _⟩ => rfl)

/-- Column 1 of row `p` of a table joined from two columns is the second column's entry at `p`. -/
theorem join_cols_right {α : Type} {n : Nat} (c₀ c₁ : (⟨2, ![n, 1]⟩ : Shape).Idx → α)
    (h : Shape.Concatenates [(⟨2, ![n, 1]⟩ : Shape), ⟨2, ![n, 1]⟩] ⟨2, ![n, 2]⟩ (1 : Fin 2)) (p : Fin n) :
    concatenate (⟨2, ![n, 2]⟩ : Shape) (1 : Fin 2) [⟨⟨2, ![n, 1]⟩, c₀⟩, ⟨⟨2, ![n, 1]⟩, c₁⟩] h (ix2 p (1 : Fin 2))
      = c₁ (ix2 p (0 : Fin 1)) :=
  concatenate_pair_apply_right (1 : Fin 2) c₀ c₁ h (ix2 p (1 : Fin 2)) rfl rfl (ix2 p (0 : Fin 1)) (fun b hb => by
    match b, hb with
    | ⟨0, _⟩, _ => rfl
    | ⟨1, _⟩, hb => exact absurd rfl hb) rfl

/-- A word reading a natural number below 2³¹ is not negative: the wrap of a negative index leaves it. -/
theorem wrap_of_small (a : ℕ) (ha : a < 2 ^ 31) (m : BitVec 32) :
    Scalar.select (IntOp.cmpi .slt (BitVec.ofNat 32 a) 0#32) (IntOp.addi (BitVec.ofNat 32 a) m) (BitVec.ofNat 32 a)
      = BitVec.ofNat 32 a := by
  have h : IntOp.cmpi .slt (BitVec.ofNat 32 a) 0#32 = 0#1 := by
    apply eq_zero_of_ne_one
    rw [StableHlo.Predicate.slt_iff_toNat (by rw [BitVec.toNat_ofNat]; omega) (by decide)]
    simp
  rw [h, select_zero]

/-- Read signed and clamped to a bound it does not exceed, such a word is the number it reads. -/
theorem clamp_of_small (a N : ℕ) (ha : a < 2 ^ 31) (hN : a ≤ N) : min (BitVec.ofNat 32 a).toInt.toNat N = a := by
  rw [StableHlo.Predicate.toInt_ofNat_small a ha, Int.toNat_natCast]
  exact Nat.min_eq_left hN

/-- The gather through a table joined from two columns, at a row `p` where the columns' words read numbers `a₀`
    and `a₁` inside the matrix: the matrix at `(a₀, a₁)`. -/
theorem gather_join_cols {α : Type} {A B n : Nat} (d : GatherDims ⟨2, ![A, B]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![A, B]⟩ : Shape).Idx → α) (c₀ c₁ : IVec ⟨2, ![n, 1]⟩ 32)
    (h : Shape.Concatenates [(⟨2, ![n, 1]⟩ : Shape), ⟨2, ![n, 1]⟩] ⟨2, ![n, 2]⟩ (1 : Fin 2)) (p : Fin n)
    (a₀ : Fin A) (a₁ : Fin B) (hA : A ≤ 2 ^ 31) (hB : B ≤ 2 ^ 31)
    (h₀ : c₀ (ix2 p (0 : Fin 1)) = BitVec.ofNat 32 a₀.val) (h₁ : c₁ (ix2 p (0 : Fin 1)) = BitVec.ofNat 32 a₁.val) :
    Host.gather d x (concatenate (⟨2, ![n, 2]⟩ : Shape) (1 : Fin 2) [⟨⟨2, ![n, 1]⟩, c₀⟩, ⟨⟨2, ![n, 1]⟩, c₁⟩] h) (ix1 p)
      = x (ix2 a₀ a₁) := by
  have hA0 := a₀.isLt
  have hB0 := a₁.isLt
  rw [gather_pair_apply d hcoll hob hsim hivd x _ p (by omega) (by omega)]
  congr 1
  funext b
  apply Fin.ext
  match b with
  | ⟨0, _⟩ =>
    show min (BitVec.toInt _).toNat (A - 1) = a₀.val
    rw [join_cols_left, h₀]
    exact clamp_of_small _ _ (by omega) (by omega)
  | ⟨1, _⟩ =>
    show min (BitVec.toInt _).toNat (B - 1) = a₁.val
    rw [join_cols_right, h₁]
    exact clamp_of_small _ _ (by omega) (by omega)

end Cert.LibGatherPair

end
-- ==== Proof.RefPos.lean ====
/- The reference's positives: the two off-diagonals of the similarity matrix, each read by a gather at the index
   pairs (r, r + 4096) and (r + 4096, r), are the inner products of row r of the first normalized input with row r of
   the second (the second by commutativity of the product).

   Each gather goes through a table of 4096 index pairs joined from two columns of index words. A column holds either
   the row numbers r or the shifted numbers 4096 + r, each passed through a wrap of negative indices (add 8192 where the
   word is negative) that never applies: both numbers lie in [0, 8192). So row r of the first table reads (r, r + 4096)
   and row r of the second (r + 4096, r), no clamp applies, and the gathered entries are the similarity matrix at those
   places: the inner product of rows r and r + 4096 of the stacked array, in one order or the other. -/
import proofs.«135226_j9397388444288_1_alg».proof.Proof.RefSim
import proofs.«135226_j9397388444288_1_alg».proof.Proof.LibGatherPair
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.LibGatherPair

/-! ## The index words -/

/-- Two small words add as the numbers they read. -/
theorem addi_ofNat (b a : ℕ) : IntOp.addi (BitVec.ofNat 32 b) (BitVec.ofNat 32 a) = BitVec.ofNat 32 (a + b) := by
  rw [Nat.add_comm a b, BitVec.ofNat_add]; rfl

/-- Entry (r, 0) of a one-column array laid out from a vector is the vector's entry r: the four columns' index maps. -/
theorem col_idx_a0 (r : Fin 4096) : idx_main_call0_v14 (ix2 r (0 : Fin 1)) = ix1 r :=
  funext fun a => by match a with | ⟨0, _⟩ => rfl
theorem col_idx_a1 (r : Fin 4096) : idx_main_call0_v15 (ix2 r (0 : Fin 1)) = ix1 r :=
  funext fun a => by match a with | ⟨0, _⟩ => rfl
theorem col_idx_b0 (r : Fin 4096) : idx_main_call1_v14 (ix2 r (0 : Fin 1)) = ix1 r :=
  funext fun a => by match a with | ⟨0, _⟩ => rfl
theorem col_idx_b1 (r : Fin 4096) : idx_main_call1_v15 (ix2 r (0 : Fin 1)) = ix1 r :=
  funext fun a => by match a with | ⟨0, _⟩ => rfl

/-- The upper diagonal's first index word at r: the row number r, which the wrap leaves. -/
theorem word_a0 (r : Fin 4096) : val_main_call0_v8 (F := Ideal) (ix1 r) = BitVec.ofNat 32 r.val := by
  rw [val_main_call0_v8_apply, val_main_call0_v5_apply, val_main_call0_v7_apply, val_main_call0_v4_apply,
    val_main_call0_v6_apply, val_main_call0_c_0_apply, val_main_call0_c_1_apply, val_main_call0_v0_apply]
  exact wrap_of_small r.val (by omega) _

/-- Its second index word at r: 4096 + r, which the wrap leaves. -/
theorem word_a1 (r : Fin 4096) : val_main_call0_v13 (F := Ideal) (ix1 r) = BitVec.ofNat 32 (r.val + 4096) := by
  rw [val_main_call0_v13_apply, val_main_call0_v10_apply, val_main_call0_v12_apply, val_main_call0_v3_apply,
    val_main_call0_v9_apply, val_main_call0_v11_apply, val_main_call0_v2_apply, val_main_call0_c_2_apply,
    val_main_call0_c_3_apply, val_main_call0_c_apply, val_main_call0_v1_apply]
  show Scalar.select (IntOp.cmpi .slt (IntOp.addi (BitVec.ofNat 32 4096) (BitVec.ofNat 32 r.val)) 0#32)
    (IntOp.addi (IntOp.addi (BitVec.ofNat 32 4096) (BitVec.ofNat 32 r.val)) 8192#32)
    (IntOp.addi (BitVec.ofNat 32 4096) (BitVec.ofNat 32 r.val)) = _
  rw [addi_ofNat]
  exact wrap_of_small (r.val + 4096) (by omega) _

/-- The lower diagonal's first index word at r: 4096 + r. -/
theorem word_b0 (r : Fin 4096) : val_main_call1_v8 (F := Ideal) (ix1 r) = BitVec.ofNat 32 (r.val + 4096) := by
  rw [val_main_call1_v8_apply, val_main_call1_v5_apply, val_main_call1_v7_apply, val_main_call1_v3_apply,
    val_main_call1_v4_apply, val_main_call1_v6_apply, val_main_call1_v2_apply, val_main_call1_c_0_apply,
    val_main_call1_c_1_apply, val_main_call1_c_apply, val_main_call1_v1_apply]
  show Scalar.select (IntOp.cmpi .slt (IntOp.addi (BitVec.ofNat 32 4096) (BitVec.ofNat 32 r.val)) 0#32)
    (IntOp.addi (IntOp.addi (BitVec.ofNat 32 4096) (BitVec.ofNat 32 r.val)) 8192#32)
    (IntOp.addi (BitVec.ofNat 32 4096) (BitVec.ofNat 32 r.val)) = _
  rw [addi_ofNat]
  exact wrap_of_small (r.val + 4096) (by omega) _

/-- Its second index word at r: the row number r. -/
theorem word_b1 (r : Fin 4096) : val_main_call1_v13 (F := Ideal) (ix1 r) = BitVec.ofNat 32 r.val := by
  rw [val_main_call1_v13_apply, val_main_call1_v10_apply, val_main_call1_v12_apply, val_main_call1_v9_apply,
    val_main_call1_v11_apply, val_main_call1_c_2_apply, val_main_call1_c_3_apply, val_main_call1_v0_apply]
  exact wrap_of_small r.val (by omega) _

/-! ## The two gathers read at r -/

/-- The upper diagonal at r is the similarity matrix at (r, r + 4096). -/
theorem upper_apply (x0 x1 : Arr) (r : Fin 4096) :
    val_main_v19 (F := Ideal) x0 x1 (ix1 r)
      = val_main_v18 (F := Ideal) x0 x1 (ix2 (⟨r.val, by omega⟩ : Fin 8192) (⟨r.val + 4096, by omega⟩ : Fin 8192)) := by
  unfold val_main_v19 val_main_call0_v16
  exact gather_join_cols gather_S8192x8192_S4096x2_S4096_n_01_n_n_01_1_11 rfl rfl rfl rfl _ _ _ _ r
    (⟨r.val, by omega⟩ : Fin 8192) (⟨r.val + 4096, by omega⟩ : Fin 8192) (by omega) (by omega)
    (by rw [val_main_call0_v14_apply, col_idx_a0, word_a0]) (by rw [val_main_call0_v15_apply, col_idx_a1, word_a1])

/-- The lower diagonal at r is the similarity matrix at (r + 4096, r). -/
theorem lower_apply (x0 x1 : Arr) (r : Fin 4096) :
    val_main_v20 (F := Ideal) x0 x1 (ix1 r)
      = val_main_v18 (F := Ideal) x0 x1 (ix2 (⟨r.val + 4096, by omega⟩ : Fin 8192) (⟨r.val, by omega⟩ : Fin 8192)) := by
  unfold val_main_v20 val_main_call1_v16
  exact gather_join_cols gather_S8192x8192_S4096x2_S4096_n_01_n_n_01_1_11 rfl rfl rfl rfl _ _ _ _ r
    (⟨r.val + 4096, by omega⟩ : Fin 8192) (⟨r.val, by omega⟩ : Fin 8192) (by omega) (by omega)
    (by rw [val_main_call1_v14_apply, col_idx_b0, word_b0]) (by rw [val_main_call1_v15_apply, col_idx_b1, word_b1])

/-! ## The positives -/

/-- The upper diagonal at r is the inner product of row r of the first normalized input with row r of the second. -/
theorem pos0_eq (x0 x1 : Arr) (r : Fin 4096) :
    val_main_v19 (F := Ideal) x0 x1 (ix1 r) = Cert.Spec.posHalfAt (val_main_v7 (F := Ideal) x0) (val_main_v15 (F := Ideal) x1) r := by
  rw [upper_apply, sim_apply]
  unfold Cert.Spec.sim Cert.Spec.posHalfAt
  refine Finset.sum_congr rfl fun d _ => ?_
  rw [z_lo x0 x1 r d, z_hi x0 x1 r d]

/-- So is the lower diagonal at r, its factors in the other order. -/
theorem pos1_eq (x0 x1 : Arr) (r : Fin 4096) :
    val_main_v20 (F := Ideal) x0 x1 (ix1 r) = Cert.Spec.posHalfAt (val_main_v7 (F := Ideal) x0) (val_main_v15 (F := Ideal) x1) r := by
  rw [lower_apply, sim_apply]
  unfold Cert.Spec.sim Cert.Spec.posHalfAt
  refine Finset.sum_congr rfl fun d _ => ?_
  rw [z_lo x0 x1 r d, z_hi x0 x1 r d]
  exact mul_comm _ _

end Cert.ReferenceIdeal.RefValue

end
-- ==== Proof.RefDenom.lean ====
/- The reference's denominators: row a of the masked exponentials' row sums is the sum over every row b ≠ a of
   exp (2 · ⟨z_a, z_b⟩). The mask is one minus the identity matrix, made by comparing two iotas; the quotient by one
   half is the product with two on every extended real. -/
import proofs.«135226_j9397388444288_1_alg».proof.Proof.RefSim
import Idealize.ShloMosaic.Lib.StableHlo.Predicate

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Row a's reduction index at position k is (a, k). -/
theorem denom_idx_eq (a k : Fin 8192) : idx_main_v34 (ix1 a) k = ix2 a k := by
  funext c
  match c with
  | ⟨0, _⟩ => rfl
  | ⟨1, _⟩ => rfl

/-- The pattern 0x3F000000 denotes the real one half. -/
theorem denom_ofBits_half : Ideal.ofBits .f32 0x3F000000#32 = (((1 : ℝ) / 2 : ℝ) : EReal) := by
  simp [Ideal.ofBits, Ideal.ieee, -EReal.coe_mul]; norm_num

/-- The pattern 0x3F800000 denotes one. -/
theorem denom_ofBits_one : Ideal.ofBits .f32 0x3F800000#32 = 1 := by
  simp [Ideal.ofBits, Ideal.ieee, -EReal.coe_mul]; norm_num

/-- The quotient by one half is the product with two, on every extended real. -/
theorem denom_div_half (x : EReal) : Ideal.div x (Ideal.ofBits .f32 0x3F000000#32) = x * 2 := by
  rw [denom_ofBits_half, Ideal.div_coe (by norm_num)]
  have h2 : (((1 : ℝ) / ((1 : ℝ) / 2) : ℝ) : EReal) = 2 := by
    rw [show ((1 : ℝ) / ((1 : ℝ) / 2)) = ((2 : ℕ) : ℝ) by norm_num, EReal.coe_natCast]
    rfl
  rw [h2]

/-- Two row numbers below 8192 whose 32-bit words agree (the first with the zero word added) are equal. -/
theorem denom_word_inj (a b : Nat) (ha : a < 8192) (hb : b < 8192)
    (h : IntOp.addi (BitVec.ofNat 32 a) 0#32 = BitVec.ofNat 32 b) : a = b := by
  have := congrArg BitVec.toNat h
  simp [IntOp.addi] at this
  omega

/-- One minus the indicator of "row number equals column number", the comparison made on 32-bit words: zero on the
    diagonal, one off it. -/
theorem denom_mask_decode (a b : Fin 8192) :
    (FloatOps.subf (F := Ideal) (φ := .f32) (Ideal.ofBits .f32 0x3F800000#32)
      (FloatOps.uitofp (F := Ideal) .f32 (IntOp.cmpi .eq (IntOp.addi (BitVec.ofNat 32 a.val) 0#32) (BitVec.ofNat 32 b.val))) : EReal)
      = if a = b then 0 else 1 := by
  rw [Ideal.subf_def, denom_ofBits_one]
  by_cases h : a = b
  · subst h
    rw [if_pos rfl, (StableHlo.Predicate.cmpi_eq_iff).mpr (by simp [IntOp.addi])]
    show (1 : EReal) - (((1#1 : BitVec 1).toNat : ℝ) : EReal) = 0
    rw [show (((1#1 : BitVec 1).toNat : ℝ)) = 1 by norm_num, EReal.coe_one, ← EReal.coe_one, ← EReal.coe_sub, sub_self,
      EReal.coe_zero]
  · rw [if_neg h, eq_zero_of_ne_one (fun hc => h (Fin.ext
      (denom_word_inj _ _ a.isLt b.isLt (StableHlo.Predicate.cmpi_eq_iff.mp hc))))]
    show (1 : EReal) - (((0#1 : BitVec 1).toNat : ℝ) : EReal) = 1
    rw [show (((0#1 : BitVec 1).toNat : ℝ)) = 0 by norm_num, EReal.coe_zero, sub_zero]

/-- The mask at (a, b): one minus the identity matrix. -/
theorem denom_mask_apply (a b : Fin 8192) : val_main_v29 (F := Ideal) (ix2 a b) = Cert.Spec.offDiag a b := by
  rw [val_main_v29_apply, val_main_v28_apply, val_main_cst_3_apply, val_main_v27_apply, val_main_v26_apply,
    val_main_v25_apply, val_main_v22_apply, val_main_v23_apply, val_main_v24_apply, val_main_c_apply, Ideal.ofBits_def]
  exact denom_mask_decode a b

/-- The exponential at (a, b): of twice the inner product of rows a and b. -/
theorem denom_exp_apply (x0 x1 : Arr) (a b : Fin 8192) :
    val_main_v32 (F := Ideal) x0 x1 (ix2 a b) = Ideal.exp (Cert.Spec.sim (val_main_v16 (F := Ideal) x0 x1) a b * 2) := by
  rw [val_main_v32_apply, val_main_v31_apply, val_main_v30_apply, val_main_cst_4_apply, sim_apply]
  simp only [Ideal.hostUnary_exp_def, Ideal.hostDivf_def, Ideal.ofBits_def]
  rw [denom_div_half]

/-- Row a of the masked exponentials' row sums: the initial value is zero, and term b of the sum is the mask at (a, b)
    times the exponential at (a, b). -/
theorem denom_eq (x0 x1 : Arr) (a : Fin 8192) :
    val_main_v34 (F := Ideal) x0 x1 (ix1 a) = Cert.Spec.denomAt (val_main_v16 (F := Ideal) x0 x1) a := by
  rw [val_main_v34_apply, val_main_cst_5_apply, Ideal.ofBits_def, Ideal.ofBits_zero_f32, zero_add]
  unfold Cert.Spec.denomAt
  refine Finset.sum_congr rfl fun k _ => ?_
  rw [denom_idx_eq, val_main_v33_apply, Ideal.mulf_def, denom_mask_apply, denom_exp_apply]

end Cert.ReferenceIdeal.RefValue

end
-- ==== Proof.Bridge.lean ====
/- The two idealized programs compute one number. Both normalize the two inputs by the same host operations and
   stack them into the array `z`; both end with the same host operations on a vector of positives and a vector of
   denominators. The kernel's positives are the row products of the two normalized inputs summed along the rows, the
   reference's the two off-diagonals of `z zᵀ`: the same inner products. The kernel's denominators are the region's
   column, row `a` the sum over the eight chunks of the masked exponentials; the reference's the row sums of
   `(1 − I) ∘ exp (z zᵀ / ½)`: both are `∑_{b ≠ a} exp (2 ⟨z_a, z_b⟩)`. -/
import proofs.«135226_j9397388444288_1_alg».proof.Proof.KernelIdeal.Result
import proofs.«135226_j9397388444288_1_alg».proof.Proof.KernelIdeal.Value
import proofs.«135226_j9397388444288_1_alg».proof.Proof.RefPos
import proofs.«135226_j9397388444288_1_alg».proof.Proof.RefDenom
import Idealize.ShloMosaic.Lib.ValueLayout

set_option maxRecDepth 16384

noncomputable section

open scoped BigOperators

namespace Cert.Proof.Bridge

open Idealize.ShloMosaic Idealize.ShloMosaic.TcCoe Idealize.ShloMosaic.ValueIdx
open Idealize.SL Idealize.SL.Sem
open Cert.KernelIdeal.Hand
open Cert.ReferenceIdeal.Read Cert.ReferenceIdeal.RefValue

variable (m : (ℓ : Loc Cert.KernelIdeal.nD Cert.KernelIdeal.τ Cert.KernelIdeal.sig) → Buf (Elt Ideal) ℓ) (c : Dev Cert.KernelIdeal.nD)

/-- The two argument arrays on core `c`. -/
abbrev a0 : Arr := m ((c.tc : Thread Cert.KernelIdeal.nD Cert.KernelIdeal.τ).loc Cert.KernelIdeal.main_arg0)
abbrev a1 : Arr := m ((c.tc : Thread Cert.KernelIdeal.nD Cert.KernelIdeal.τ).loc Cert.KernelIdeal.main_arg1)

/-! ## The host operations before the region are the reference's first stages -/

theorem V7 : V m c Cert.KernelIdeal.main_v7 = val_main_v7 (F := Ideal) (a0 m c) := by
  dsimp only [V, V₀]
  simp only [Cert.KernelIdeal.Gen.hostOps0, List.flatten_cons, List.flatten_nil, List.append_nil]
  after_results
  rfl

theorem V15 : V m c Cert.KernelIdeal.main_v15 = val_main_v15 (F := Ideal) (a1 m c) := by
  dsimp only [V, V₀]
  simp only [Cert.KernelIdeal.Gen.hostOps0, List.flatten_cons, List.flatten_nil, List.append_nil]
  after_results
  rfl

/-- The stacked array the region reads is the reference's (rounding to a narrower format is the identity on the
    extended reals). -/
theorem V17 : (V m c Cert.KernelIdeal.main_v17 : Cert.Spec.Sz.Idx → EReal) = val_main_v16 (F := Ideal) (a0 m c) (a1 m c) := by
  dsimp only [V, V₀]
  simp only [Cert.KernelIdeal.Gen.hostOps0, List.flatten_cons, List.flatten_nil, List.append_nil]
  after_results
  rfl

/-! ## The positives -/

/-- The summed row products at row `r`. -/
theorem posHalf_apply (u v : Arr) (r : Fin 4096) :
    posHalf (F := Ideal) u v (ix1 r) = Cert.Spec.posHalfAt u v r := by
  unfold posHalf
  simp only [Host.reduceAdd, Ideal.hostReduceAdd_def]
  rw [Ideal.hostReduceAdd_single Cert.KernelIdeal.Gen.reducesTo_S4096x256_S4096_d1 (by decide)]
  show Ideal.ofBits .f32 0x00000000#32 + _ = _
  rw [Ideal.ofBits_zero_f32, zero_add]
  unfold Cert.Spec.posHalfAt
  refine Finset.sum_congr rfl fun d _ => ?_
  show u _ * v _ = u _ * v _
  congr 2 <;> exact funext fun a => Fin.ext (by match a with | ⟨0, _⟩ => rfl | ⟨1, _⟩ => rfl)

theorem pos0 : posHalf (F := Ideal) (val_main_v7 (F := Ideal) (a0 m c)) (val_main_v15 (F := Ideal) (a1 m c)) = val_main_v19 (F := Ideal) (a0 m c) (a1 m c) :=
  funext fun i => by
    obtain ⟨r, rfl⟩ : ∃ r : Fin 4096, i = ix1 r := ⟨i 0, eq_ix1 i⟩
    rw [posHalf_apply, pos0_eq]

theorem pos1 : posHalf (F := Ideal) (val_main_v7 (F := Ideal) (a0 m c)) (val_main_v15 (F := Ideal) (a1 m c)) = val_main_v20 (F := Ideal) (a0 m c) (a1 m c) :=
  funext fun i => by
    obtain ⟨r, rfl⟩ : ∃ r : Fin 4096, i = ix1 r := ⟨i 0, eq_ix1 i⟩
    rw [posHalf_apply, pos1_eq]

/-! ## The denominators -/

theorem denoms : denomVec (F := Ideal) ((dats (F := Ideal) m 0 c).arrAt 2 Cert.KernelIdeal.cfg0.N) = val_main_v34 (F := Ideal) (a0 m c) (a1 m c) :=
  funext fun i => by
    obtain ⟨a, rfl⟩ : ∃ a : Fin 8192, i = ix1 a := ⟨i 0, eq_ix1 i⟩
    rw [denom_eq, ← V17 m c, ← out_denom m c a]
    unfold denomVec
    exact shapeCast_apply _ _ (ix1 a) (ix2 a 0) (by
      rw [Shape.rowMajor_val_two, Shape.rowMajor_val_one]
      show a.val * 1 + 0 = a.val
      omega)

/-! ## The results -/

/-- The reference's result through the kernel program's names for the shared last operations. -/
theorem ref_result : val_main_v41 (F := Ideal) (a0 m c) (a1 m c)
    = lossTail (F := Ideal) (posVec (val_main_v19 (F := Ideal) (a0 m c) (a1 m c)) (val_main_v20 (F := Ideal) (a0 m c) (a1 m c))) (val_main_v34 (F := Ideal) (a0 m c) (a1 m c)) := rfl

/-- One number. -/
theorem result_bridge : result (F := Ideal) m c = val_main_v41 (F := Ideal) (a0 m c) (a1 m c) := by
  rw [ref_result]
  unfold result
  rw [V7, V15, denoms]
  exact congrArg (fun p => lossTail (F := Ideal) p (val_main_v34 (F := Ideal) (a0 m c) (a1 m c)))
    (congrArg₂ (posVec (F := Ideal)) (pos0 m c) (pos1 m c))

end Cert.Proof.Bridge

end
-- ==== Proof.lean ====
/- The certificate of an NT-Xent contrastive loss whose O(B²) masked exp-sum is a pipelined kernel, against its
   plain reference. Three frames: the word-level program and its idealization run to the end and keep their arguments
   (the region's launch with two windows on one array, the array's share split in two and rejoined around the region;
   the same proof at both float instances); the reference keeps its arguments by its generated run. The idealization
   rewrote nothing, so `preserves` asks nothing. At the ideal instance both programs end with the same number: they
   share the normalization and the last host operations, the positives are the same inner products of matching rows,
   and the denominators are the same off-diagonal sums `∑_{b ≠ a} exp (2 ⟨z_a, z_b⟩)` — chunked by 1024 columns in the
   kernel, in one sum in the reference; sums of extended reals regroup freely, so the inputs' finiteness is not used. -/
import proofs.«135226_j9397388444288_1_alg».proof.Defs
import proofs.«135226_j9397388444288_1_alg».proof.Proof.Gen.Kernel
import proofs.«135226_j9397388444288_1_alg».proof.Proof.Gen.KernelIdeal
import proofs.«135226_j9397388444288_1_alg».proof.Proof.Gen.ReferenceIdeal
import proofs.«135226_j9397388444288_1_alg».proof.Proof.Gen.Pre_finite_inputs
import proofs.«135226_j9397388444288_1_alg».proof.Proof.Gen.ReferenceIdeal.Run
import proofs.«135226_j9397388444288_1_alg».proof.Proof.Kernel.Frame
import proofs.«135226_j9397388444288_1_alg».proof.Proof.KernelIdeal.Frame
import proofs.«135226_j9397388444288_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end, with equal results. -/
theorem algebraic : Cert.algebraic_KernelIdeal_ReferenceIdeal := by
  intro m ρ m' ρ' _ hagree
  refine ⟨fun c => Cert.KernelIdeal.Hand.result (F := Ideal) m c, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2]
  exact (Cert.Proof.Bridge.result_bridge m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
